-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S200000x128 : Shape := ⟨2, ![200000, 128]⟩
abbrev S200000x3x128 : Shape := ⟨3, ![200000, 3, 128]⟩
abbrev S200000 : Shape := ⟨1, ![200000]⟩
abbrev S128x128 : Shape := ⟨2, ![128, 128]⟩
abbrev S192x64 : Shape := ⟨2, ![192, 64]⟩
abbrev S64 : Shape := ⟨1, ![64]⟩
abbrev S64x128 : Shape := ⟨2, ![64, 128]⟩
abbrev S128 : Shape := ⟨1, ![128]⟩
abbrev S64x2 : Shape := ⟨2, ![64, 2]⟩
abbrev S65x1 : Shape := ⟨2, ![65, 1]⟩
abbrev S1 : Shape := ⟨1, ![1]⟩
abbrev S1x2 : Shape := ⟨2, ![1, 2]⟩
abbrev S2 : Shape := ⟨1, ![2]⟩
abbrev S7x10 : Shape := ⟨2, ![7, 10]⟩
abbrev S10 : Shape := ⟨1, ![10]⟩
abbrev S10x3 : Shape := ⟨2, ![10, 3]⟩
abbrev S3 : Shape := ⟨1, ![3]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S200000x3x128 : S_.BroadcastsInDim S200000x3x128 (![] : Fin 0 → Fin S200000x3x128.rank)
  reducesTo_S200000x3x128_S_d0_1_2 : S200000x3x128.ReducesTo [0, 1, 2] S_
  bcast_S_S128x128 : S_.BroadcastsInDim S128x128 (![] : Fin 0 → Fin S128x128.rank)
  reducesTo_S128x128_S_d0_1 : S128x128.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64x2 : S_.BroadcastsInDim S64x2 (![] : Fin 0 → Fin S64x2.rank)
  reducesTo_S64x2_S_d0_1 : S64x2.ReducesTo [0, 1] S_
  bcast_S_S65x1 : S_.BroadcastsInDim S65x1 (![] : Fin 0 → Fin S65x1.rank)
  reducesTo_S65x1_S_d0_1 : S65x1.ReducesTo [0, 1] S_
  bcast_S_S1 : S_.BroadcastsInDim S1 (![] : Fin 0 → Fin S1.rank)
  reducesTo_S1_S_d0 : S1.ReducesTo [0] S_
  bcast_S_S1x2 : S_.BroadcastsInDim S1x2 (![] : Fin 0 → Fin S1x2.rank)
  reducesTo_S1x2_S_d0_1 : S1x2.ReducesTo [0, 1] S_
  bcast_S_S2 : S_.BroadcastsInDim S2 (![] : Fin 0 → Fin S2.rank)
  reducesTo_S2_S_d0 : S2.ReducesTo [0] S_
  bcast_S_S7x10 : S_.BroadcastsInDim S7x10 (![] : Fin 0 → Fin S7x10.rank)
  reducesTo_S7x10_S_d0_1 : S7x10.ReducesTo [0, 1] S_
  bcast_S_S10 : S_.BroadcastsInDim S10 (![] : Fin 0 → Fin S10.rank)
  reducesTo_S10_S_d0 : S10.ReducesTo [0] S_
  bcast_S_S10x3 : S_.BroadcastsInDim S10x3 (![] : Fin 0 → Fin S10x3.rank)
  reducesTo_S10x3_S_d0_1 : S10x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg15 : FVec F S10 .f32) (main_arg16 : FVec F S10x3 .f32) (main_arg17 : FVec F S3 .f32) (main_v63 : IVec S_ 1) (main_v67 : IVec S_ 1) : IVec S_ 1 :=
  let main_v68 : IVec S_ 1 := andi main_v63 main_v67
  let main_v69 : FVec F S10 .f32 := Host.absf main_arg15
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : FVec F S10x3 .f32 := Host.absf main_arg16
  let main_cst_28 : FVec F S_ .f32 := constant S_ .f32 0x7F800000#32
  let main_v75 : FVec F S10x3 .f32 := broadcastInDim S10x3 ![] bcast_S_S10x3 main_cst_28
  let main_v76 : IVec S10x3 1 := cmpf .olt main_v74 main_v75
  let main_c_29 : IVec S_ 1 := constantI S_ 1 1#1
  let main_v77 : IVec S_ 1 := (fun x v => Host.reduce IntOp.andi x v reducesTo_S10x3_S_d0_1 h_S_) main_v76 main_c_29
  let main_v78 : IVec S_ 1 := andi main_v73 main_v77
  let main_v79 : FVec F S3 .f32 := Host.absf main_arg17
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  main_v83

def fn_part3 {F : FTy → Type} [FloatOps F] (main_arg12 : FVec F S1x2 .f32) (main_arg13 : FVec F S2 .f32) (main_arg14 : FVec F S7x10 .f32) (main_arg15 : FVec F S10 .f32) (main_arg16 : FVec F S10x3 .f32) (main_arg17 : FVec F S3 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x2 .f32 := Host.absf main_arg12
  let main_cst_20 : FVec F S_ .f32 := constant S_ .f32 0x7F800000#32
  let main_v55 : FVec F S1x2 .f32 := broadcastInDim S1x2 ![] bcast_S_S1x2 main_cst_20
  let main_v56 : IVec S1x2 1 := cmpf .olt main_v54 main_v55
  let main_c_21 : IVec S_ 1 := constantI S_ 1 1#1
  let main_v57 : IVec S_ 1 := (fun x v => Host.reduce IntOp.andi x v reducesTo_S1x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_v64 : FVec F S7x10 .f32 := Host.absf main_arg14
  let main_cst_24 : FVec F S_ .f32 := constant S_ .f32 0x7F800000#32
  let main_v65 : FVec F S7x10 .f32 := broadcastInDim S7x10 ![] bcast_S_S7x10 main_cst_24
  let main_v66 : IVec S7x10 1 := cmpf .olt main_v64 main_v65
  let main_c_25 : IVec S_ 1 := constantI S_ 1 1#1
  let main_v67 : IVec S_ 1 := (fun x v => Host.reduce IntOp.andi x v reducesTo_S7x10_S_d0_1 h_S_) main_v66 main_c_25
  fn_part4 (F := F) main_arg15 main_arg16 main_arg17 main_v63 main_v67

def fn_part2 {F : FTy → Type} [FloatOps F] (main_arg8 : FVec F S128 .f32) (main_arg9 : FVec F S64x2 .f32) (main_arg10 : FVec F S65x1 .f32) (main_arg11 : FVec F S1 .f32) (main_arg12 : FVec F S1x2 .f32) (main_arg13 : FVec F S2 .f32) (main_arg14 : FVec F S7x10 .f32) (main_arg15 : FVec F S10 .f32) (main_arg16 : FVec F S10x3 .f32) (main_arg17 : FVec F S3 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x2 .f32 := Host.absf main_arg9
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S65x1 .f32 := Host.absf main_arg10
  let main_cst_16 : FVec F S_ .f32 := constant S_ .f32 0x7F800000#32
  let main_v45 : FVec F S65x1 .f32 := broadcastInDim S65x1 ![] bcast_S_S65x1 main_cst_16
  let main_v46 : IVec S65x1 1 := cmpf .olt main_v44 main_v45
  let main_c_17 : IVec S_ 1 := constantI S_ 1 1#1
  let main_v47 : IVec S_ 1 := (fun x v => Host.reduce IntOp.andi x v reducesTo_S65x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_arg16 main_arg17 main_v48 main_v49 main_v50

def fn_part1 {F : FTy → Type} [FloatOps F] (main_arg5 : FVec F S192x64 .f32) (main_arg6 : FVec F S64 .f32) (main_arg7 : FVec F S64x128 .f32) (main_arg8 : FVec F S128 .f32) (main_arg9 : FVec F S64x2 .f32) (main_arg10 : FVec F S65x1 .f32) (main_arg11 : FVec F S1 .f32) (main_arg12 : FVec F S1x2 .f32) (main_arg13 : FVec F S2 .f32) (main_arg14 : FVec F S7x10 .f32) (main_arg15 : FVec F S10 .f32) (main_arg16 : FVec F S10x3 .f32) (main_arg17 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S200000x3 .f32) (main_arg1 : FVec F S200000x128 .f32) (main_arg2 : FVec F S200000x3x128 .f32) (main_arg3 : IVec S200000 32) (main_arg4 : FVec F S128x128 .f32) (main_arg5 : FVec F S192x64 .f32) (main_arg6 : FVec F S64 .f32) (main_arg7 : FVec F S64x128 .f32) (main_arg8 : FVec F S128 .f32) (main_arg9 : FVec F S64x2 .f32) (main_arg10 : FVec F S65x1 .f32) (main_arg11 : FVec F S1 .f32) (main_arg12 : FVec F S1x2 .f32) (main_arg13 : FVec F S2 .f32) (main_arg14 : FVec F S7x10 .f32) (main_arg15 : FVec F S10 .f32) (main_arg16 : FVec F S10x3 .f32) (main_arg17 : FVec F S3 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S200000x3x128 .f32 := Host.absf main_arg2
  let main_cst_2 : FVec F S_ .f32 := constant S_ .f32 0x7F800000#32
  let main_v10 : FVec F S200000x3x128 .f32 := broadcastInDim S200000x3x128 ![] bcast_S_S200000x3x128 main_cst_2
  let main_v11 : IVec S200000x3x128 1 := cmpf .olt main_v9 main_v10
  let main_c_3 : IVec S_ 1 := constantI S_ 1 1#1
  let main_v12 : IVec S_ 1 := (fun x v => Host.reduce IntOp.andi x v reducesTo_S200000x3x128_S_d0_1_2 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S200000x3 : Shape := ⟨2, ![200000, 3]⟩
abbrev S200000x128 : Shape := ⟨2, ![200000, 128]⟩
abbrev S200000x3x128 : Shape := ⟨3, ![200000, 3, 128]⟩
abbrev S200000 : Shape := ⟨1, ![200000]⟩
abbrev S128x128 : Shape := ⟨2, ![128, 128]⟩
abbrev S192x64 : Shape := ⟨2, ![192, 64]⟩
abbrev S64 : Shape := ⟨1, ![64]⟩
abbrev S64x128 : Shape := ⟨2, ![64, 128]⟩
abbrev S128 : Shape := ⟨1, ![128]⟩
abbrev S64x2 : Shape := ⟨2, ![64, 2]⟩
abbrev S65x1 : Shape := ⟨2, ![65, 1]⟩
abbrev S1 : Shape := ⟨1, ![1]⟩
abbrev S1x2 : Shape := ⟨2, ![1, 2]⟩
abbrev S2 : Shape := ⟨1, ![2]⟩
abbrev S7x10 : Shape := ⟨2, ![7, 10]⟩
abbrev S10 : Shape := ⟨1, ![10]⟩
abbrev S10x3 : Shape := ⟨2, ![10, 3]⟩
abbrev S3 : Shape := ⟨1, ![3]⟩
abbrev S200000x384 : Shape := ⟨2, ![200000, 384]⟩
abbrev S4000x128 : Shape := ⟨2, ![4000, 128]⟩
abbrev S4000x384 : Shape := ⟨2, ![4000, 384]⟩
abbrev S4000x3 : Shape := ⟨2, ![4000, 3]⟩
abbrev S4000x64 : Shape := ⟨2, ![4000, 64]⟩
abbrev S4000x192 : Shape := ⟨2, ![4000, 192]⟩
abbrev S1x64 : Shape := ⟨2, ![1, 64]⟩
abbrev S1x128 : Shape := ⟨2, ![1, 128]⟩
abbrev S4000x2 : Shape := ⟨2, ![4000, 2]⟩
abbrev S4000x1 : Shape := ⟨2, ![4000, 1]⟩
abbrev S4000x65 : Shape := ⟨2, ![4000, 65]⟩
abbrev S1x1 : Shape := ⟨2, ![1, 1]⟩
abbrev S4000x7 : Shape := ⟨2, ![4000, 7]⟩
abbrev S4000x10 : Shape := ⟨2, ![4000, 10]⟩
abbrev S1x10 : Shape := ⟨2, ![1, 10]⟩
abbrev S1x3 : Shape := ⟨2, ![1, 3]⟩
abbrev S600000 : Shape := ⟨1, ![600000]⟩

abbrev nBuf : Space → Nat
  | .hbm => 21
  | .vmem => 22
  | .smem => 0
  | _ => 0

abbrev bufTy : (tb : Table) → Fin (tcTables nBuf tb) → BufTy
  | .hbm, ⟨0, _⟩ => ⟨S200000x3, .f32⟩
  | .hbm, ⟨1, _⟩ => ⟨S200000x128, .f32⟩
  | .hbm, ⟨2, _⟩ => ⟨S200000x3x128, .f32⟩
  | .hbm, ⟨3, _⟩ => ⟨S200000, .i32⟩
  | .hbm, ⟨4, _⟩ => ⟨S128x128, .f32⟩
  | .hbm, ⟨5, _⟩ => ⟨S192x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S64x2, .f32⟩
  | .hbm, ⟨10, _⟩ => ⟨S65x1, .f32⟩
  | .hbm, ⟨11, _⟩ => ⟨S1, .f32⟩
  | .hbm, ⟨12, _⟩ => ⟨S1x2, .f32⟩
  | .hbm, ⟨13, _⟩ => ⟨S2, .f32⟩
  | .hbm, ⟨14, _⟩ => ⟨S7x10, .f32⟩
  | .hbm, ⟨15, _⟩ => ⟨S10, .f32⟩
  | .hbm, ⟨16, _⟩ => ⟨S10x3, .f32⟩
  | .hbm, ⟨17, _⟩ => ⟨S3, .f32⟩
  | .hbm, ⟨18, _⟩ => ⟨S200000x384, .f32⟩
  | .hbm, ⟨19, _⟩ => ⟨S200000x3, .f32⟩
  | .hbm, ⟨20, _⟩ => ⟨S600000, .f32⟩
  | .local _ .vmem, ⟨0, _⟩ => ⟨S4000x128, .f32⟩
  | .local _ .vmem, ⟨1, _⟩ => ⟨S4000x128, .f32⟩
  | .local _ .vmem, ⟨2, _⟩ => ⟨S4000x384, .f32⟩
  | .local _ .vmem, ⟨3, _⟩ => ⟨S4000x384, .f32⟩
  | .local _ .vmem, ⟨4, _⟩ => ⟨S4000x3, .f32⟩
  | .local _ .vmem, ⟨5, _⟩ => ⟨S4000x3, .f32⟩
  | .local _ .vmem, ⟨6, _⟩ => ⟨S128x128, .f32⟩
  | .local _ .vmem, ⟨7, _⟩ => ⟨S192x64, .f32⟩
  | .local _ .vmem, ⟨8, _⟩ => ⟨S64, .f32⟩
  | .local _ .vmem, ⟨9, _⟩ => ⟨S64x128, .f32⟩
  | .local _ .vmem, ⟨10, _⟩ => ⟨S128, .f32⟩
  | .local _ .vmem, ⟨11, _⟩ => ⟨S64x2, .f32⟩
  | .local _ .vmem, ⟨12, _⟩ => ⟨S65x1, .f32⟩
  | .local _ .vmem, ⟨13, _⟩ => ⟨S1, .f32⟩
  | .local _ .vmem, ⟨14, _⟩ => ⟨S1x2, .f32⟩
  | .local _ .vmem, ⟨15, _⟩ => ⟨S2, .f32⟩
  | .local _ .vmem, ⟨16, _⟩ => ⟨S7x10, .f32⟩
  | .local _ .vmem, ⟨17, _⟩ => ⟨S10, .f32⟩
  | .local _ .vmem, ⟨18, _⟩ => ⟨S10x3, .f32⟩
  | .local _ .vmem, ⟨19, _⟩ => ⟨S3, .f32⟩
  | .local _ .vmem, ⟨20, _⟩ => ⟨S4000x3, .f32⟩
  | .local _ .vmem, ⟨21, _⟩ => ⟨S4000x3, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S65x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S7x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S10x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4000x3 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S200000x3x128_S200000x384 : S200000x3x128.ShapeCasts S200000x384
  inb_S4000x128_S4000x128_0_0 : ∀ a, (![0, 0] : Fin 2 → Nat) a + S4000x128.size a ≤ S4000x128.size a
  h_S4000x128 : 0 < S4000x128.numel
  inb_S4000x384_S4000x384_0_0 : ∀ a, (![0, 0] : Fin 2 → Nat) a + S4000x384.size a ≤ S4000x384.size a
  h_S4000x384 : 0 < S4000x384.numel
  shapeCasts_S4000x384_S4000x384 : S4000x384.ShapeCasts S4000x384
  slices_S4000x384_o0_0_S4000x128 : S4000x384.Slices ![0, 0] S4000x128
  slices_S4000x384_o0_128_S4000x128 : S4000x384.Slices ![0, 128] S4000x128
  slices_S4000x384_o0_256_S4000x128 : S4000x384.Slices ![0, 256] S4000x128
  inb_S4000x3_S4000x3_0_0 : ∀ a, (![0, 0] : Fin 2 → Nat) a + S4000x3.size a ≤ S4000x3.size a
  h_S4000x3 : 0 < S4000x3.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  slices_S4000x128_o0_0_S4000x64 : S4000x128.Slices ![0, 0] S4000x64
  slices_S4000x128_o0_64_S4000x64 : S4000x128.Slices ![0, 64] S4000x64
  concatenates_S4000x128_S4000x64_S4000x192_d1 : Shape.Concatenates [S4000x128, S4000x64] S4000x192 1
  inb_S192x64_S192x64_0_0 : ∀ a, (![0, 0] : Fin 2 → Nat) a + S192x64.size a ≤ S192x64.size a
  h_S192x64 : 0 < S192x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S64x2_S64x2_0_0 : ∀ a, (![0, 0] : Fin 2 → Nat) a + S64x2.size a ≤ S64x2.size a
  h_S64x2 : 0 < S64x2.numel
  slices_S4000x2_o0_0_S4000x1 : S4000x2.Slices ![0, 0] S4000x1
  slices_S4000x2_o0_1_S4000x1 : S4000x2.Slices ![0, 1] S4000x1
  concatenates_S4000x64_S4000x1_S4000x65_d1 : Shape.Concatenates [S4000x64, S4000x1] S4000x65 1
  inb_S65x1_S65x1_0_0 : ∀ a, (![0, 0] : Fin 2 → Nat) a + S65x1.size a ≤ S65x1.size a
  h_S65x1 : 0 < S65x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S1x2_S1x2_0_0 : ∀ a, (![0, 0] : Fin 2 → Nat) a + S1x2.size a ≤ S1x2.size a
  h_S1x2 : 0 < S1x2.numel
  inb_S2_S2_0 : ∀ a, (![0] : Fin 1 → Nat) a + S2.size a ≤ S2.size a
  h_S2 : 0 < S2.numel
  shapeCasts_S2_S1x2 : S2.ShapeCasts S1x2
  broadcasts_S1x2_S4000x2 : S1x2.Broadcasts S4000x2
  concatenates_S4000x1_S4000x1_S4000x1_S4000x3_S4000x1_S4000x7_d1 : Shape.Concatenates [S4000x1, S4000x1, S4000x1, S4000x3, S4000x1] S4000x7 1
  inb_S7x10_S7x10_0_0 : ∀ a, (![0, 0] : Fin 2 → Nat) a + S7x10.size a ≤ S7x10.size a
  h_S7x10 : 0 < S7x10.numel
  inb_S10_S10_0 : ∀ a, (![0] : Fin 1 → Nat) a + S10.size a ≤ S10.size a
  h_S10 : 0 < S10.numel
  shapeCasts_S10_S1x10 : S10.ShapeCasts S1x10
  broadcasts_S1x10_S4000x10 : S1x10.Broadcasts S4000x10
  inb_S10x3_S10x3_0_0 : ∀ a, (![0, 0] : Fin 2 → Nat) a + S10x3.size a ≤ S10x3.size a
  h_S10x3 : 0 < S10x3.numel
  inb_S3_S3_0 : ∀ a, (![0] : Fin 1 → Nat) a + S3.size a ≤ S3.size a
  h_S3 : 0 < S3.numel
  shapeCasts_S3_S1x3 : S3.ShapeCasts S1x3
  broadcasts_S1x3_S4000x3 : S1x3.Broadcasts S4000x3
  shapeCasts_S200000x3_S600000 : S200000x3.ShapeCasts S600000
  dot_S4000x128_S128x128_S4000x128_1_0_0_1_n_n_wf : DotDims.WF S4000x128 S128x128 S4000x128 [1] [0] [0] [1] [] []
  dot_S4000x192_S192x64_S4000x64_1_0_0_1_n_n_wf : DotDims.WF S4000x192 S192x64 S4000x64 [1] [0] [0] [1] [] []
  dot_S4000x64_S64x128_S4000x128_1_0_0_1_n_n_wf : DotDims.WF S4000x64 S64x128 S4000x128 [1] [0] [0] [1] [] []
  dot_S4000x64_S64x2_S4000x2_1_0_0_1_n_n_wf : DotDims.WF S4000x64 S64x2 S4000x2 [1] [0] [0] [1] [] []
  dot_S4000x65_S65x1_S4000x1_1_0_0_1_n_n_wf : DotDims.WF S4000x65 S65x1 S4000x1 [1] [0] [0] [1] [] []
  dot_S4000x1_S1x2_S4000x2_1_0_0_1_n_n_wf : DotDims.WF S4000x1 S1x2 S4000x2 [1] [0] [0] [1] [] []
  dot_S4000x7_S7x10_S4000x10_1_0_0_1_n_n_wf : DotDims.WF S4000x7 S7x10 S4000x10 [1] [0] [0] [1] [] []
  dot_S4000x10_S10x3_S4000x3_1_0_0_1_n_n_wf : DotDims.WF S4000x10 S10x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x384.size a ≤ S200000x384.size a
  hwx0_1 : ∀ i : grid0.Coords, EltTy.bits .f32 = 32 ∨ (Rect.block (s := S200000x384) S4000x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S200000x3.size a
  hwx0_2 : ∀ i : grid0.Coords, EltTy.bits .f32 = 32 ∨ (Rect.block (s := S200000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x64.size a ≤ S192x64.size a
  hwx0_4 : ∀ i : grid0.Coords, EltTy.bits .f32 = 32 ∨ (Rect.block (s := S192x64) S192x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x2.size a ≤ S64x2.size a
  hwx0_8 : ∀ i : grid0.Coords, EltTy.bits .f32 = 32 ∨ (Rect.block (s := S64x2) S64x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S65x1.size a ≤ S65x1.size a
  hwx0_9 : ∀ i : grid0.Coords, EltTy.bits .f32 = 32 ∨ (Rect.block (s := S65x1) S65x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2.size a ≤ S1x2.size a
  hwx0_11 : ∀ i : grid0.Coords, EltTy.bits .f32 = 32 ∨ (Rect.block (s := S1x2) S1x2.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2.size a ≤ S2.size a
  hwx0_12 : ∀ i : grid0.Coords, EltTy.bits .f32 = 32 ∨ (Rect.block (s := S2) S2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S7x10.size a ≤ S7x10.size a
  hwx0_13 : ∀ i : grid0.Coords, EltTy.bits .f32 = 32 ∨ (Rect.block (s := S7x10) S7x10.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S10.size a ≤ S10.size a
  hwx0_14 : ∀ i : grid0.Coords, EltTy.bits .f32 = 32 ∨ (Rect.block (s := S10) S10.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S10x3.size a ≤ S10x3.size a
  hwx0_15 : ∀ i : grid0.Coords, EltTy.bits .f32 = 32 ∨ (Rect.block (s := S10x3) S10x3.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S3.size a ≤ S3.size a
  hwx0_16 : ∀ i : grid0.Coords, EltTy.bits .f32 = 32 ∨ (Rect.block (s := S3) S3.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4000x3.size a ≤ S200000x3.size a
  hwx0_17 : ∀ i : grid0.Coords, EltTy.bits .f32 = 32 ∨ (Rect.block (s := S200000x3) S4000x3.size (cc0_transform_17 i) (hinb0_17 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x192_S192x64_S4000x64_1_0_0_1_n_n : DotDims S4000x192 S192x64 S4000x64 where
  lhsContracting := [1]
  rhsContracting := [0]
  lhsNonContracting := [0]
  rhsNonContracting := [1]
  lhsBatch := []
  rhsBatch := []
  wf := dot_S4000x192_S192x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf
def dot_S4000x65_S65x1_S4000x1_1_0_0_1_n_n : DotDims S4000x65 S65x1 S4000x1 where
  lhsContracting := [1]
  rhsContracting := [0]
  lhsNonContracting := [0]
  rhsNonContracting := [1]
  lhsBatch := []
  rhsBatch := []
  wf := dot_S4000x65_S65x1_S4000x1_1_0_0_1_n_n_wf
def dot_S4000x1_S1x2_S4000x2_1_0_0_1_n_n : DotDims S4000x1 S1x2 S4000x2 where
  lhsContracting := [1]
  rhsContracting := [0]
  lhsNonContracting := [0]
  rhsNonContracting := [1]
  lhsBatch := []
  rhsBatch := []
  wf := dot_S4000x1_S1x2_S4000x2_1_0_0_1_n_n_wf
def dot_S4000x7_S7x10_S4000x10_1_0_0_1_n_n : DotDims S4000x7 S7x10 S4000x10 where
  lhsContracting := [1]
  rhsContracting := [0]
  lhsNonContracting := [0]
  rhsNonContracting := [1]
  lhsBatch := []
  rhsBatch := []
  wf := dot_S4000x7_S7x10_S4000x10_1_0_0_1_n_n_wf
def dot_S4000x10_S10x3_S4000x3_1_0_0_1_n_n : DotDims S4000x10 S10x3 S4000x3 where
  lhsContracting := [1]
  rhsContracting := [0]
  lhsNonContracting := [0]
  rhsNonContracting := [1]
  lhsBatch := []
  rhsBatch := []
  wf := dot_S4000x10_S10x3_S4000x3_1_0_0_1_n_n_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S192x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S65x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S1x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S7x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S10x3.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S3.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v1) S4000x3.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S200000x3 : Shape := ⟨2, ![200000, 3]⟩
abbrev S200000x128 : Shape := ⟨2, ![200000, 128]⟩
abbrev S200000x3x128 : Shape := ⟨3, ![200000, 3, 128]⟩
abbrev S200000 : Shape := ⟨1, ![200000]⟩
abbrev S128x128 : Shape := ⟨2, ![128, 128]⟩
abbrev S192x64 : Shape := ⟨2, ![192, 64]⟩
abbrev S64 : Shape := ⟨1, ![64]⟩
abbrev S64x128 : Shape := ⟨2, ![64, 128]⟩
abbrev S128 : Shape := ⟨1, ![128]⟩
abbrev S64x2 : Shape := ⟨2, ![64, 2]⟩
abbrev S65x1 : Shape := ⟨2, ![65, 1]⟩
abbrev S1 : Shape := ⟨1, ![1]⟩
abbrev S1x2 : Shape := ⟨2, ![1, 2]⟩
abbrev S2 : Shape := ⟨1, ![2]⟩
abbrev S7x10 : Shape := ⟨2, ![7, 10]⟩
abbrev S10 : Shape := ⟨1, ![10]⟩
abbrev S10x3 : Shape := ⟨2, ![10, 3]⟩
abbrev S3 : Shape := ⟨1, ![3]⟩
abbrev S200000x3x64 : Shape := ⟨3, ![200000, 3, 64]⟩
abbrev S_ : Shape := ⟨0, ![]⟩
abbrev S200000x64 : Shape := ⟨2, ![200000, 64]⟩
abbrev S200000x192 : Shape := ⟨2, ![200000, 192]⟩
abbrev S1x64 : Shape := ⟨2, ![1, 64]⟩
abbrev S1x128 : Shape := ⟨2, ![1, 128]⟩
abbrev S200000x1x64 : Shape := ⟨3, ![200000, 1, 64]⟩
abbrev S200000x3x2 : Shape := ⟨3, ![200000, 3, 2]⟩
abbrev S200000x3x1 : Shape := ⟨3, ![200000, 3, 1]⟩
abbrev S200000x1 : Shape := ⟨2, ![200000, 1]⟩
abbrev S200000x65 : Shape := ⟨2, ![200000, 65]⟩
abbrev S1x1 : Shape := ⟨2, ![1, 1]⟩
abbrev S200000x2 : Shape := ⟨2, ![200000, 2]⟩
abbrev S200000x1x1 : Shape := ⟨3, ![200000, 1, 1]⟩
abbrev S200000x7 : Shape := ⟨2, ![200000, 7]⟩
abbrev S200000x10 : Shape := ⟨2, ![200000, 10]⟩
abbrev S1x10 : Shape := ⟨2, ![1, 10]⟩
abbrev S1x3 : Shape := ⟨2, ![1, 3]⟩
abbrev S600000 : Shape := ⟨1, ![600000]⟩

abbrev nBuf : Space → Nat
  | .hbm => 107
  | .vmem => 0
  | .smem => 0
  | _ => 0

abbrev bufTy : (tb : Table) → Fin (tcTables nBuf tb) → BufTy
  | .hbm, ⟨0, _⟩ => ⟨S200000x3, .f32⟩
  | .hbm, ⟨1, _⟩ => ⟨S200000x128, .f32⟩
  | .hbm, ⟨2, _⟩ => ⟨S200000x3x128, .f32⟩
  | .hbm, ⟨3, _⟩ => ⟨S200000, .i32⟩
  | .hbm, ⟨4, _⟩ => ⟨S128x128, .f32⟩
  | .hbm, ⟨5, _⟩ => ⟨S192x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S64x2, .f32⟩
  | .hbm, ⟨10, _⟩ => ⟨S65x1, .f32⟩
  | .hbm, ⟨11, _⟩ => ⟨S1, .f32⟩
  | .hbm, ⟨12, _⟩ => ⟨S1x2, .f32⟩
  | .hbm, ⟨13, _⟩ => ⟨S2, .f32⟩
  | .hbm, ⟨14, _⟩ => ⟨S7x10, .f32⟩
  | .hbm, ⟨15, _⟩ => ⟨S10, .f32⟩
  | .hbm, ⟨16, _⟩ => ⟨S10x3, .f32⟩
  | .hbm, ⟨17, _⟩ => ⟨S3, .f32⟩
  | .hbm, ⟨18, _⟩ => ⟨S200000x3x128, .f32⟩
  | .hbm, ⟨19, _⟩ => ⟨S200000x3x64, .f32⟩
  | .hbm, ⟨20, _⟩ => ⟨S200000x3x64, .f32⟩
  | .hbm, ⟨21, _⟩ => ⟨S200000x3x64, .f32⟩
  | .hbm, ⟨22, _⟩ => ⟨S_, .f32⟩
  | .hbm, ⟨23, _⟩ => ⟨S200000x64, .f32⟩
  | .hbm, ⟨24, _⟩ => ⟨S200000x64, .f32⟩
  | .hbm, ⟨25, _⟩ => ⟨S200000x192, .f32⟩
  | .hbm, ⟨26, _⟩ => ⟨S200000x64, .f32⟩
  | .hbm, ⟨27, _⟩ => ⟨S1x64, .f32⟩
  | .hbm, ⟨28, _⟩ => ⟨S200000x64, .f32⟩
  | .hbm, ⟨29, _⟩ => ⟨S200000x64, .f32⟩
  | .hbm, ⟨30, _⟩ => ⟨S200000x64, .f32⟩
  | .hbm, ⟨31, _⟩ => ⟨S200000x64, .f32⟩
  | .hbm, ⟨32, _⟩ => ⟨S_, .f32⟩
  | .hbm, ⟨33, _⟩ => ⟨S200000x64, .f32⟩
  | .hbm, ⟨34, _⟩ => ⟨S200000x64, .f32⟩
  | .hbm, ⟨35, _⟩ => ⟨S_, .f32⟩
  | .hbm, ⟨36, _⟩ => ⟨S200000x64, .f32⟩
  | .hbm, ⟨37, _⟩ => ⟨S200000x64, .f32⟩
  | .hbm, ⟨38, _⟩ => ⟨S200000x64, .f32⟩
  | .hbm, ⟨39, _⟩ => ⟨S200000x128, .f32⟩
  | .hbm, ⟨40, _⟩ => ⟨S1x128, .f32⟩
  | .hbm, ⟨41, _⟩ => ⟨S200000x128, .f32⟩
  | .hbm, ⟨42, _⟩ => ⟨S200000x128, .f32⟩
  | .hbm, ⟨43, _⟩ => ⟨S200000x64, .f32⟩
  | .hbm, ⟨44, _⟩ => ⟨S200000x64, .f32⟩
  | .hbm, ⟨45, _⟩ => ⟨S200000x1x64, .f32⟩
  | .hbm, ⟨46, _⟩ => ⟨S200000x3x64, .f32⟩
  | .hbm, ⟨47, _⟩ => ⟨S200000x3x64, .f32⟩
  | .hbm, ⟨48, _⟩ => ⟨S200000x64, .f32⟩
  | .hbm, ⟨49, _⟩ => ⟨S200000x64, .f32⟩
  | .hbm, ⟨50, _⟩ => ⟨S_, .f32⟩
  | .hbm, ⟨51, _⟩ => ⟨S200000x64, .f32⟩
  | .hbm, ⟨52, _⟩ => ⟨S200000x64, .f32⟩
  | .hbm, ⟨53, _⟩ => ⟨S_, .f32⟩
  | .hbm, ⟨54, _⟩ => ⟨S200000x64, .f32⟩
  | .hbm, ⟨55, _⟩ => ⟨S200000x64, .f32⟩
  | .hbm, ⟨56, _⟩ => ⟨S200000x64, .f32⟩
  | .hbm, ⟨57, _⟩ => ⟨S200000x3x2, .f32⟩
  | .hbm, ⟨58, _⟩ => ⟨S200000x3x1, .f32⟩
  | .hbm, ⟨59, _⟩ => ⟨S200000x3x1, .f32⟩
  | .hbm, ⟨60, _⟩ => ⟨S200000x3x1, .f32⟩
  | .hbm, ⟨61, _⟩ => ⟨S_, .f32⟩
  | .hbm, ⟨62, _⟩ => ⟨S200000x1, .f32⟩
  | .hbm, ⟨63, _⟩ => ⟨S200000x1, .f32⟩
  | .hbm, ⟨64, _⟩ => ⟨S200000x65, .f32⟩
  | .hbm, ⟨65, _⟩ => ⟨S200000x1, .f32⟩
  | .hbm, ⟨66, _⟩ => ⟨S1x1, .f32⟩
  | .hbm, ⟨67, _⟩ => ⟨S200000x1, .f32⟩
  | .hbm, ⟨68, _⟩ => ⟨S200000x1, .f32⟩
  | .hbm, ⟨69, _⟩ => ⟨S200000x1, .f32⟩
  | .hbm, ⟨70, _⟩ => ⟨S200000x1, .f32⟩
  | .hbm, ⟨71, _⟩ => ⟨S_, .f32⟩
  | .hbm, ⟨72, _⟩ => ⟨S200000x1, .f32⟩
  | .hbm, ⟨73, _⟩ => ⟨S200000x1, .f32⟩
  | .hbm, ⟨74, _⟩ => ⟨S_, .f32⟩
  | .hbm, ⟨75, _⟩ => ⟨S200000x1, .f32⟩
  | .hbm, ⟨76, _⟩ => ⟨S200000x1, .f32⟩
  | .hbm, ⟨77, _⟩ => ⟨S200000x1, .f32⟩
  | .hbm, ⟨78, _⟩ => ⟨S200000x2, .f32⟩
  | .hbm, ⟨79, _⟩ => ⟨S1x2, .f32⟩
  | .hbm, ⟨80, _⟩ => ⟨S200000x2, .f32⟩
  | .hbm, ⟨81, _⟩ => ⟨S200000x2, .f32⟩
  | .hbm, ⟨82, _⟩ => ⟨S200000x1, .f32⟩
  | .hbm, ⟨83, _⟩ => ⟨S200000x1, .f32⟩
  | .hbm, ⟨84, _⟩ => ⟨S200000x1x1, .f32⟩
  | .hbm, ⟨85, _⟩ => ⟨S200000x3x1, .f32⟩
  | .hbm, ⟨86, _⟩ => ⟨S200000x3x1, .f32⟩
  | .hbm, ⟨87, _⟩ => ⟨S200000x3, .f32⟩
  | .hbm, ⟨88, _⟩ => ⟨S200000x7, .f32⟩
  | .hbm, ⟨89, _⟩ => ⟨S200000x10, .f32⟩
  | .hbm, ⟨90, _⟩ => ⟨S1x10, .f32⟩
  | .hbm, ⟨91, _⟩ => ⟨S200000x10, .f32⟩
  | .hbm, ⟨92, _⟩ => ⟨S200000x10, .f32⟩
  | .hbm, ⟨93, _⟩ => ⟨S200000x10, .f32⟩
  | .hbm, ⟨94, _⟩ => ⟨S200000x10, .f32⟩
  | .hbm, ⟨95, _⟩ => ⟨S_, .f32⟩
  | .hbm, ⟨96, _⟩ => ⟨S200000x10, .f32⟩
  | .hbm, ⟨97, _⟩ => ⟨S200000x10, .f32⟩
  | .hbm, ⟨98, _⟩ => ⟨S_, .f32⟩
  | .hbm, ⟨99, _⟩ => ⟨S200000x10, .f32⟩
  | .hbm, ⟨100, _⟩ => ⟨S200000x10, .f32⟩
  | .hbm, ⟨101, _⟩ => ⟨S200000x10, .f32⟩
  | .hbm, ⟨102, _⟩ => ⟨S200000x3, .f32⟩
  | .hbm, ⟨103, _⟩ => ⟨S1x3, .f32⟩
  | .hbm, ⟨104, _⟩ => ⟨S200000x3, .f32⟩
  | .hbm, ⟨105, _⟩ => ⟨S200000x3, .f32⟩
  | .hbm, ⟨106, _⟩ => ⟨S600000, .f32⟩
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_call3_v0 : Ref sig .tc := ⟨.hbm, 60, rfl⟩
abbrev main_call3_cst : Ref sig .tc := ⟨.hbm, 61, rfl⟩
abbrev main_call3_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_call4_v0 : Ref sig .tc := ⟨.hbm, 69, rfl⟩
abbrev main_call4_v1 : Ref sig .tc := ⟨.hbm, 70, rfl⟩
abbrev main_call4_cst : Ref sig .tc := ⟨.hbm, 71, rfl⟩
abbrev main_call4_v2 : Ref sig .tc := ⟨.hbm, 72, rfl⟩
abbrev main_call4_v3 : Ref sig .tc := ⟨.hbm, 73, rfl⟩
abbrev main_call4_cst_0 : Ref sig .tc := ⟨.hbm, 74, rfl⟩
abbrev main_call4_v4 : Ref sig .tc := ⟨.hbm, 75, rfl⟩
abbrev main_call4_v5 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_call5_v0 : Ref sig .tc := ⟨.hbm, 93, rfl⟩
abbrev main_call5_v1 : Ref sig .tc := ⟨.hbm, 94, rfl⟩
abbrev main_call5_cst : Ref sig .tc := ⟨.hbm, 95, rfl⟩
abbrev main_call5_v2 : Ref sig .tc := ⟨.hbm, 96, rfl⟩
abbrev main_call5_v3 : Ref sig .tc := ⟨.hbm, 97, rfl⟩
abbrev main_call5_cst_0 : Ref sig .tc := ⟨.hbm, 98, rfl⟩
abbrev main_call5_v4 : Ref sig .tc := ⟨.hbm, 99, rfl⟩
abbrev main_call5_v5 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩

abbrev nD : Nat := 1
abbrev τ : Topo := Topo.v7x

variable {F : FTy → Type} [FloatOps F]

class Facts₀ : Prop where
  slices_S200000x3x128_S200000x3x64_0_0_0 : S200000x3x128.Slices ![0, 0, 0] S200000x3x64
  slices_S200000x3x128_S200000x3x64_0_0_64 : S200000x3x128.Slices ![0, 0, 64] S200000x3x64
  reducesTo_S200000x3x64_S200000x64_d1 : S200000x3x64.ReducesTo [1] S200000x64
  h_S_ : 0 < S_.numel
  concatenates_S200000x128_S200000x64_S200000x192_d1 : Shape.Concatenates [S200000x128, S200000x64] S200000x192 1
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  slices_S200000x128_S200000x64_0_0 : S200000x128.Slices ![0, 0] S200000x64
  slices_S200000x128_S200000x64_0_64 : S200000x128.Slices ![0, 64] S200000x64
  bcast_S200000x64_S200000x1x64_0_2 : S200000x64.BroadcastsInDim S200000x1x64 (![0, 2] : Fin 2 → Fin S200000x1x64.rank)
  bcast_S200000x1x64_S200000x3x64_0_1_2 : S200000x1x64.BroadcastsInDim S200000x3x64 (![0, 1, 2] : Fin 3 → Fin S200000x3x64.rank)
  slices_S200000x3x2_S200000x3x1_0_0_0 : S200000x3x2.Slices ![0, 0, 0] S200000x3x1
  slices_S200000x3x2_S200000x3x1_0_0_1 : S200000x3x2.Slices ![0, 0, 1] S200000x3x1
  reducesTo_S200000x3x1_S200000x1_d1 : S200000x3x1.ReducesTo [1] S200000x1
  concatenates_S200000x64_S200000x1_S200000x65_d1 : Shape.Concatenates [S200000x64, S200000x1] S200000x65 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  slices_S200000x2_S200000x1_0_0 : S200000x2.Slices ![0, 0] S200000x1
  slices_S200000x2_S200000x1_0_1 : S200000x2.Slices ![0, 1] S200000x1
  bcast_S200000x1_S200000x1x1_0_2 : S200000x1.BroadcastsInDim S200000x1x1 (![0, 2] : Fin 2 → Fin S200000x1x1.rank)
  bcast_S200000x1x1_S200000x3x1_0_1_2 : S200000x1x1.BroadcastsInDim S200000x3x1 (![0, 1, 2] : Fin 3 → Fin S200000x3x1.rank)
  shapeCasts_S200000x3x1_S200000x3 : S200000x3x1.ShapeCasts S200000x3
  concatenates_S200000x3_S200000x3_S200000x1_S200000x7_d1 : Shape.Concatenates [S200000x3, S200000x3, S200000x1] S200000x7 1
  bcast_S10_S1x10_1 : S10.BroadcastsInDim S1x10 (![1] : Fin 1 → Fin S1x10.rank)
  bcast_S1x10_S200000x10_0_1 : S1x10.BroadcastsInDim S200000x10 (![0, 1] : Fin 2 → Fin S200000x10.rank)
  bcast_S_S200000x10 : S_.BroadcastsInDim S200000x10 (![] : Fin 0 → Fin S200000x10.rank)
  bcast_S3_S1x3_1 : S3.BroadcastsInDim S1x3 (![1] : Fin 1 → Fin S1x3.rank)
  bcast_S1x3_S200000x3_0_1 : S1x3.BroadcastsInDim S200000x3 (![0, 1] : Fin 2 → Fin S200000x3.rank)
  shapeCasts_S200000x3_S600000 : S200000x3.ShapeCasts S600000
  dot_S200000x3x128_S128x128_S200000x3x128_2_0_01_1_n_n_wf : DotDims.WF S200000x3x128 S128x128 S200000x3x128 [2] [0] [0, 1] [1] [] []
  dot_S200000x192_S192x64_S200000x64_1_0_0_1_n_n_wf : DotDims.WF S200000x192 S192x64 S200000x64 [1] [0] [0] [1] [] []
  dot_S200000x64_S64x128_S200000x128_1_0_0_1_n_n_wf : DotDims.WF S200000x64 S64x128 S200000x128 [1] [0] [0] [1] [] []
  dot_S200000x3x64_S64x2_S200000x3x2_2_0_01_1_n_n_wf : DotDims.WF S200000x3x64 S64x2 S200000x3x2 [2] [0] [0, 1] [1] [] []
  dot_S200000x65_S65x1_S200000x1_1_0_0_1_n_n_wf : DotDims.WF S200000x65 S65x1 S200000x1 [1] [0] [0] [1] [] []
  dot_S200000x1_S1x2_S200000x2_1_0_0_1_n_n_wf : DotDims.WF S200000x1 S1x2 S200000x2 [1] [0] [0] [1] [] []
  dot_S200000x7_S7x10_S200000x10_1_0_0_1_n_n_wf : DotDims.WF S200000x7 S7x10 S200000x10 [1] [0] [0] [1] [] []
  dot_S200000x10_S10x3_S200000x3_1_0_0_1_n_n_wf : DotDims.WF S200000x10 S10x3 S200000x3 [1] [0] [0] [1] [] []

variable [Facts₀]

def dot_S200000x3x128_S128x128_S200000x3x128_2_0_01_1_n_n : DotDims S200000x3x128 S128x128 S200000x3x128 where
  lhsContracting := [2]
  rhsContracting := [0]
  lhsNonContracting := [0, 1]
  rhsNonContracting := [1]
  lhsBatch := []
  rhsBatch := []
  wf := dot_S200000x3x128_S128x128_S200000x3x128_2_0_01_1_n_n_wf
def dot_S200000x192_S192x64_S200000x64_1_0_0_1_n_n : DotDims S200000x192 S192x64 S200000x64 where
  lhsContracting := [1]
  rhsContracting := [0]
  lhsNonContracting := [0]
  rhsNonContracting := [1]
  lhsBatch := []
  rhsBatch := []
  wf := dot_S200000x192_S192x64_S200000x64_1_0_0_1_n_n_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def dot_S200000x3x64_S64x2_S200000x3x2_2_0_01_1_n_n : DotDims S200000x3x64 S64x2 S200000x3x2 where
  lhsContracting := [2]
  rhsContracting := [0]
  lhsNonContracting := [0, 1]
  rhsNonContracting := [1]
  lhsBatch := []
  rhsBatch := []
  wf := dot_S200000x3x64_S64x2_S200000x3x2_2_0_01_1_n_n_wf
def dot_S200000x65_S65x1_S200000x1_1_0_0_1_n_n : DotDims S200000x65 S65x1 S200000x1 where
  lhsContracting := [1]
  rhsContracting := [0]
  lhsNonContracting := [0]
  rhsNonContracting := [1]
  lhsBatch := []
  rhsBatch := []
  wf := dot_S200000x65_S65x1_S200000x1_1_0_0_1_n_n_wf
def dot_S200000x1_S1x2_S200000x2_1_0_0_1_n_n : DotDims S200000x1 S1x2 S200000x2 where
  lhsContracting := [1]
  rhsContracting := [0]
  lhsNonContracting := [0]
  rhsNonContracting := [1]
  lhsBatch := []
  rhsBatch := []
  wf := dot_S200000x1_S1x2_S200000x2_1_0_0_1_n_n_wf
def dot_S200000x7_S7x10_S200000x10_1_0_0_1_n_n : DotDims S200000x7 S7x10 S200000x10 where
  lhsContracting := [1]
  rhsContracting := [0]
  lhsNonContracting := [0]
  rhsNonContracting := [1]
  lhsBatch := []
  rhsBatch := []
  wf := dot_S200000x7_S7x10_S200000x10_1_0_0_1_n_n_wf
def dot_S200000x10_S10x3_S200000x3_1_0_0_1_n_n : DotDims S200000x10 S10x3 S200000x3 where
  lhsContracting := [1]
  rhsContracting := [0]
  lhsNonContracting := [0]
  rhsNonContracting := [1]
  lhsBatch := []
  rhsBatch := []
  wf := dot_S200000x10_S10x3_S200000x3_1_0_0_1_n_n_wf

class Facts : Prop extends Facts₀ where

variable [Facts]
-- ==== Proof.AtomSpec.lean ====
/-
  One atom's output, as a function of that atom's own features and of the network's weights.

  The network is two gated equivariant blocks followed by a small dense network, applied to every atom by itself:
  no entry of the result depends on another atom. An atom carries a scalar feature vector s (128 entries), three
  vector feature rows v 0, v 1, v 2 (128 entries each, one per Cartesian component) and a position (3 entries).

  Block 1 mixes each component row with one matrix (128 → 128), splits the mix into a first half (whose
  Euclidean norm over the three components is taken, entry by entry) and a second half; the scalars joined with the
  64 norms go through a dense layer with x · σ(x), then a second dense layer whose first half (after x · σ(x)) is the
  block's scalar output and whose second half gates the second half of the mix, component by component.
  Block 2 repeats this at widths 64 → 2, 65 → 1 → 2, without the final x · σ(x). The three gated components, the
  position and the scalar output (7 numbers) go through a dense network 7 → 10 → 3 with x · σ(x) in between.

  Everything is on the extended reals, sums are Finset sums over the contracted index, and the three squares under a
  norm are added from the left; σ is the logistic function 1 / (1 + e⁻ˣ) and √ the extended square root.
-/
import Idealize.ShloMosaic.PureOps.Ideal.Laws
import Idealize.ShloMosaic.Lib.ValueIdx
import Idealize.ShloMosaic.Lib.IdealHost

noncomputable section

open scoped BigOperators

namespace Cert.AtomSpec

open Idealize.ShloMosaic Idealize.ShloMosaic.ValueIdx

/-- x · σ(x). -/
def silu (x : EReal) : EReal := x * Ideal.logistic x

/-- The Euclidean norm of three components, the squares added from the left. -/
def norm3 (a b c : EReal) : EReal := Ideal.sqrt ((a * a + b * b) + c * c)

/-- Entry j of the first half of a 128-vector. -/
abbrev lo (j : Fin 64) : Fin 128 := ⟨j.val, by omega⟩
/-- Entry j of the second half of a 128-vector. -/
abbrev hi (j : Fin 64) : Fin 128 := ⟨64 + j.val, by omega⟩

/-- The network's parameters, entry by entry. -/
structure Weights where
  mix1 : Fin 128 → Fin 128 → EReal
  w11 : Fin 192 → Fin 64 → EReal
  b11 : Fin 64 → EReal
  w21 : Fin 64 → Fin 128 → EReal
  b21 : Fin 128 → EReal
  mix2 : Fin 64 → Fin 2 → EReal
  w12 : Fin 65 → Fin 1 → EReal
  b12 : Fin 1 → EReal
  w22 : Fin 1 → Fin 2 → EReal
  b22 : Fin 2 → EReal
  wd1 : Fin 7 → Fin 10 → EReal
  bd1 : Fin 10 → EReal
  wd2 : Fin 10 → Fin 3 → EReal
  bd2 : Fin 3 → EReal

/-- One atom's inputs: scalar features, the three component rows of its vector features, its position. -/
structure Atom where
  s : Fin 128 → EReal
  v : Fin 3 → Fin 128 → EReal
  pos : Fin 3 → EReal

variable (W : Weights) (a : Atom)

/-! ## Block 1 -/

/-- Component c of the vector features mixed by the first matrix, at output entry o. -/
def mixA (c : Fin 3) (o : Fin 128) : EReal := ∑ i : Fin 128, a.v c i * W.mix1 i o

/-- The norm over the three components of the first half of the mix, at entry j. -/
def normA (j : Fin 64) : EReal := norm3 (mixA W a 0 (lo j)) (mixA W a 1 (lo j)) (mixA W a 2 (lo j))

/-- The scalars followed by the 64 norms. -/
def catA (k : Fin 192) : EReal := if h : k.val < 128 then a.s ⟨k.val, h⟩ else normA W a ⟨k.val - 128, by omega⟩

/-- The first dense layer before its nonlinearity. -/
def preA (j : Fin 64) : EReal := (∑ k : Fin 192, catA W a k * W.w11 k j) + W.b11 j

/-- The hidden layer. -/
def hidA (j : Fin 64) : EReal := silu (preA W a j)

/-- The second dense layer: 128 outputs, scalars first, gates second. -/
def outA (o : Fin 128) : EReal := (∑ k : Fin 64, hidA W a k * W.w21 k o) + W.b21 o

/-- Block 1's scalar output. -/
def sA (j : Fin 64) : EReal := silu (outA W a (lo j))

/-- Block 1's gate. -/
def gateA (j : Fin 64) : EReal := outA W a (hi j)

/-- Block 1's vector output: the gate times the second half of the mix. -/
def vecA (c : Fin 3) (j : Fin 64) : EReal := gateA W a j * mixA W a c (hi j)

/-! ## Block 2 -/

/-- Component c of block 1's vector output mixed by the second matrix (64 → 2). -/
def mixB (c : Fin 3) (o : Fin 2) : EReal := ∑ i : Fin 64, vecA W a c i * W.mix2 i o

/-- The norm over the three components of the first entry of the mix. -/
def normB : EReal := norm3 (mixB W a 0 0) (mixB W a 1 0) (mixB W a 2 0)

/-- Block 1's scalar output followed by that one norm. -/
def catB (k : Fin 65) : EReal := if h : k.val < 64 then sA W a ⟨k.val, h⟩ else normB W a

/-- Block 2's first dense layer (65 → 1) before its nonlinearity. -/
def preB : EReal := (∑ k : Fin 65, catB W a k * W.w12 k 0) + W.b12 0

/-- Block 2's hidden unit. -/
def hidB : EReal := silu (preB W a)

/-- Block 2's second dense layer (1 → 2): entry 0 is the scalar output, entry 1 the gate. -/
def outB (o : Fin 2) : EReal := (∑ k : Fin 1, hidB W a * W.w22 k o) + W.b22 o

/-- Block 2's vector output, one number per component: the gate times the second entry of the mix. -/
def vecB (c : Fin 3) : EReal := outB W a 1 * mixB W a c 1

/-! ## The dense network on the seven features -/

/-- The three gated components, the position, the scalar output. -/
def featA (k : Fin 7) : EReal :=
  if h : k.val < 3 then vecB W a ⟨k.val, h⟩
  else if h' : k.val < 6 then a.pos ⟨k.val - 3, by omega⟩
  else outB W a 0

/-- The dense network's first layer (7 → 10) before its nonlinearity. -/
def preD (j : Fin 10) : EReal := (∑ k : Fin 7, featA W a k * W.wd1 k j) + W.bd1 j

/-- Its hidden layer. -/
def hidD (j : Fin 10) : EReal := silu (preD W a j)

/-- The atom's three outputs. -/
def result (j : Fin 3) : EReal := (∑ k : Fin 10, hidD W a k * W.wd2 k j) + W.bd2 j

/-! ## The arrays -/

/-- The weights as the programs hold them: a matrix read at (row, column), a vector at its entry. -/
def weightsOf
    (w4 : (⟨2, ![128, 128]⟩ : Shape).Idx → EReal) (w5 : (⟨2, ![192, 64]⟩ : Shape).Idx → EReal)
    (w6 : (⟨1, ![64]⟩ : Shape).Idx → EReal) (w7 : (⟨2, ![64, 128]⟩ : Shape).Idx → EReal)
    (w8 : (⟨1, ![128]⟩ : Shape).Idx → EReal) (w9 : (⟨2, ![64, 2]⟩ : Shape).Idx → EReal)
    (w10 : (⟨2, ![65, 1]⟩ : Shape).Idx → EReal) (w11 : (⟨1, ![1]⟩ : Shape).Idx → EReal)
    (w12 : (⟨2, ![1, 2]⟩ : Shape).Idx → EReal) (w13 : (⟨1, ![2]⟩ : Shape).Idx → EReal)
    (w14 : (⟨2, ![7, 10]⟩ : Shape).Idx → EReal) (w15 : (⟨1, ![10]⟩ : Shape).Idx → EReal)
    (w16 : (⟨2, ![10, 3]⟩ : Shape).Idx → EReal) (w17 : (⟨1, ![3]⟩ : Shape).Idx → EReal) : Weights where
  mix1 i o := w4 (ix2 i o)
  w11 k j := w5 (ix2 k j)
  b11 j := w6 (ix1 j)
  w21 k o := w7 (ix2 k o)
  b21 o := w8 (ix1 o)
  mix2 i o := w9 (ix2 i o)
  w12 k j := w10 (ix2 k j)
  b12 j := w11 (ix1 j)
  w22 k o := w12 (ix2 k o)
  b22 o := w13 (ix1 o)
  wd1 k j := w14 (ix2 k j)
  bd1 j := w15 (ix1 j)
  wd2 k j := w16 (ix2 k j)
  bd2 j := w17 (ix1 j)

/-- Atom n of the argument arrays: its row of the scalars, its three rows of the vector features, its position. -/
def atomOf (A0 : (⟨2, ![200000, 3]⟩ : Shape).Idx → EReal) (A1 : (⟨2, ![200000, 128]⟩ : Shape).Idx → EReal)
    (A2 : (⟨3, ![200000, 3, 128]⟩ : Shape).Idx → EReal) (n : Fin 200000) : Atom where
  s i := A1 (ix2 n i)
  v c i := A2 (ix3 n c i)
  pos k := A0 (ix2 n k)

theorem idx1_lt {n : ℕ} (j : (⟨1, ![n]⟩ : Shape).Idx) : (j 0).val < n := (j 0).isLt

/-- The result as a matrix [200000, 3]: row n is atom n's three outputs. -/
def resultRows (W : Weights) (A0 : (⟨2, ![200000, 3]⟩ : Shape).Idx → EReal) (A1 : (⟨2, ![200000, 128]⟩ : Shape).Idx → EReal)
    (A2 : (⟨3, ![200000, 3, 128]⟩ : Shape).Idx → EReal) : (⟨2, ![200000, 3]⟩ : Shape).Idx → EReal :=
  fun i => result W (atomOf A0 A1 A2 ⟨(i 0).val, idx2_lt0 i⟩) ⟨(i 1).val, idx2_lt1 i⟩

/-- The result flattened row by row to 600000 entries: entry 3n + j is output j of atom n. -/
def resultFlat (W : Weights) (A0 : (⟨2, ![200000, 3]⟩ : Shape).Idx → EReal) (A1 : (⟨2, ![200000, 128]⟩ : Shape).Idx → EReal)
    (A2 : (⟨3, ![200000, 3, 128]⟩ : Shape).Idx → EReal) : (⟨1, ![600000]⟩ : Shape).Idx → EReal :=
  fun i => result W (atomOf A0 A1 A2 ⟨(i 0).val / 3, by have := idx1_lt i; omega⟩) ⟨(i 0).val % 3, Nat.mod_lt _ (by decide)⟩

/-! ## The logistic function as the host spells it -/

/-- x · (1 / (1 + e⁻ˣ)), with the two ones read off their f32 word, is x · σ(x). -/
theorem silu_host (x : EReal) :
    x * Ideal.div (Ideal.ofBits .f32 0x3F800000#32) (Ideal.ofBits .f32 0x3F800000#32 + Ideal.exp (-x)) = silu x := by
  unfold silu Ideal.logistic
  rw [Ideal.ofBits_one_f32]

end Cert.AtomSpec

end
-- ==== Proof.KernelBlock1.lean ====
/-
  Block 1 of the kernel's body, read at one row of the block.

  The body works on a block of 4000 atoms at once: x0 is the block of scalar features [4000, 128], x1 the block of
  vector features with the three component rows laid side by side [4000, 384] (component c in columns 128 c …
  128 c + 127), x2 the block of positions; x3 … x16 are the weights, whole. Every operation of the body is row-wise,
  so row r of each intermediate value is a function of row r of the blocks: the corresponding stage of the one-atom
  specification at the atom made of those rows.
-/
import proofs.«118726_j67070209295171_1_alg».proof.Proof.Gen.KernelIdeal.Skeleton
import proofs.«118726_j67070209295171_1_alg».proof.Proof.AtomSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RowValue

open Cert.KernelIdeal Cert.KernelIdeal.Gen Cert.AtomSpec Idealize.ShloMosaic Idealize.ShloMosaic.ValueIdx

variable (x0 : Vec Ideal S4000x128 .f32) (x1 : Vec Ideal S4000x384 .f32) (x2 : Vec Ideal S4000x3 .f32)
  (x3 : Vec Ideal S128x128 .f32) (x4 : Vec Ideal S192x64 .f32) (x5 : Vec Ideal S64 .f32) (x6 : Vec Ideal S64x128 .f32)
  (x7 : Vec Ideal S128 .f32) (x8 : Vec Ideal S64x2 .f32) (x9 : Vec Ideal S65x1 .f32) (x10 : Vec Ideal S1 .f32)
  (x11 : Vec Ideal S1x2 .f32) (x12 : Vec Ideal S2 .f32) (x13 : Vec Ideal S7x10 .f32) (x14 : Vec Ideal S10 .f32)
  (x15 : Vec Ideal S10x3 .f32) (x16 : Vec Ideal S3 .f32) (r : Fin 4000)

/-- The weights the body loaded, as the specification's parameters. -/
abbrev wK : Weights := weightsOf x3 x4 x5 x6 x7 x8 x9 x10 x11 x12 x13 x14 x15 x16

/-- The atom in row r of the blocks: its scalars, its three component rows (side by side in x1), its position. -/
def atomK : Atom where
  s i := x0 (ix2 r i)
  v c i := x1 (ix2 r ⟨128 * c.val + i.val, by have := c.isLt; have := i.isLt; omega⟩)
  pos k := x2 (ix2 r k)

/-! ### The mixing product [4000, 128] × [128, 128], read at an entry -/

/-- The left operand's row is the result's row. -/
theorem lhs_mix_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column is the contracted position. -/
theorem lhs_mix_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the contracted position. -/
theorem rhs_mix_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column is the result's column. -/
theorem rhs_mix_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into the zero accumulator, at row p and column c: the sum over the 128 contracted positions. -/
theorem mix_apply (L : FVec Ideal S4000x128 .bf16) (R : FVec Ideal S128x128 .bf16) (p : Fin 4000) (c : Fin 128) :
    matmul dot_S4000x128_S128x128_S4000x128_1_0_0_1_n_n none L R (constant (F := Ideal) S4000x128 .f32 0x00000000#32) (ix2 p c)
      = ∑ k : Fin 128, L (ix2 p k) * R (ix2 k c) := by
  refine (Ideal.matmul_constant_zero_apply dot_S4000x128_S128x128_S4000x128_1_0_0_1_n_n none L R (ix2 p c)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p c) ((contrEquiv1 dot_S4000x128_S128x128_S4000x128_1_0_0_1_n_n 128 rfl rfl).symm k) = ix2 p k := funext fun a => Fin.ext (by
    match a with
    | ⟨0, _⟩ => exact lhs_mix_0 _ _
    | ⟨1, _⟩ => exact (lhs_mix_1 _ _).trans hk)
  have er : dot_S4000x128_S128x128_S4000x128_1_0_0_1_n_n.rhsIdx (ix2 p c) ((contrEquiv1 dot_S4000x128_S128x128_S4000x128_1_0_0_1_n_n 128 rfl rfl).symm k) = ix2 k c := funext fun a => Fin.ext (by
    match a with
    | ⟨0, _⟩ => exact (rhs_mix_0 _ _).trans hk
    | ⟨1, _⟩ => exact rhs_mix_1 _ _)
  rw [el, er]

/-! ### The first dense layer's product [4000, 192] × [192, 64], read at an entry -/

/-- The left operand's row is the result's row. -/
theorem lhs_den1_0 (i : S4000x64.Idx) (q : dot_S4000x192_S192x64_S4000x64_1_0_0_1_n_n.contr.Idx) :
    (dot_S4000x192_S192x64_S4000x64_1_0_0_1_n_n.lhsIdx i q 0).val = (i 0).val := by
  unfold DotDims.lhsIdx
  rw [dif_neg (show ¬(0 : Fin S4000x192.rank) ∈ dot_S4000x192_S192x64_S4000x64_1_0_0_1_n_n.lhsBatch by decide), dif_pos (show (0 : Fin S4000x192.rank) ∈ dot_S4000x192_S192x64_S4000x64_1_0_0_1_n_n.lhsNonContracting by decide)]
  rfl
/-- The left operand's column is the contracted position. -/
theorem lhs_den1_1 (i : S4000x64.Idx) (q : dot_S4000x192_S192x64_S4000x64_1_0_0_1_n_n.contr.Idx) :
    (dot_S4000x192_S192x64_S4000x64_1_0_0_1_n_n.lhsIdx i q 1).val = (q ⟨0, by decide⟩).val :=
  dot_S4000x192_S192x64_S4000x64_1_0_0_1_n_n.lhsIdx_val_of_single rfl i q
/-- The right operand's row is the contracted position. -/
theorem rhs_den1_0 (i : S4000x64.Idx) (q : dot_S4000x192_S192x64_S4000x64_1_0_0_1_n_n.contr.Idx) :
    (dot_S4000x192_S192x64_S4000x64_1_0_0_1_n_n.rhsIdx i q 0).val = (q ⟨0, by decide⟩).val :=
  dot_S4000x192_S192x64_S4000x64_1_0_0_1_n_n.rhsIdx_val_of_single rfl i q
/-- The right operand's column is the result's column. -/
theorem rhs_den1_1 (i : S4000x64.Idx) (q : dot_S4000x192_S192x64_S4000x64_1_0_0_1_n_n.contr.Idx) :
    (dot_S4000x192_S192x64_S4000x64_1_0_0_1_n_n.rhsIdx i q 1).val = (i 1).val := by
  unfold DotDims.rhsIdx
  rw [dif_neg (show ¬(1 : Fin S192x64.rank) ∈ dot_S4000x192_S192x64_S4000x64_1_0_0_1_n_n.rhsBatch by decide), dif_pos (show (1 : Fin S192x64.rank) ∈ dot_S4000x192_S192x64_S4000x64_1_0_0_1_n_n.rhsNonContracting by decide)]
  rfl

/-- The product into the zero accumulator, at row p and column c: the sum over the 192 contracted positions. -/
theorem den1_apply (L : FVec Ideal S4000x192 .bf16) (R : FVec Ideal S192x64 .bf16) (p : Fin 4000) (c : Fin 64) :
    matmul dot_S4000x192_S192x64_S4000x64_1_0_0_1_n_n none L R (constant (F := Ideal) S4000x64 .f32 0x00000000#32) (ix2 p c)
      = ∑ k : Fin 192, L (ix2 p k) * R (ix2 k c) := by
  refine (Ideal.matmul_constant_zero_apply dot_S4000x192_S192x64_S4000x64_1_0_0_1_n_n none L R (ix2 p c)).trans ?_
  rw [← Equiv.sum_comp (contrEquiv1 dot_S4000x192_S192x64_S4000x64_1_0_0_1_n_n 192 rfl rfl).symm]
  refine Finset.sum_congr rfl fun k _ => ?_
  have hk := contrEquiv1_symm_val dot_S4000x192_S192x64_S4000x64_1_0_0_1_n_n 192 rfl rfl k
  have el : dot_S4000x192_S192x64_S4000x64_1_0_0_1_n_n.lhsIdx (ix2 p c) ((contrEquiv1 dot_S4000x192_S192x64_S4000x64_1_0_0_1_n_n 192 rfl rfl).symm k) = ix2 p k := funext fun a => Fin.ext (by
    match a with
    | ⟨0, _⟩ => exact lhs_den1_0 _ _
    | ⟨1, _⟩ => exact (lhs_den1_1 _ _).trans hk)
  have er : dot_S4000x192_S192x64_S4000x64_1_0_0_1_n_n.rhsIdx (ix2 p c) ((contrEquiv1 dot_S4000x192_S192x64_S4000x64_1_0_0_1_n_n 192 rfl rfl).symm k) = ix2 k c := funext fun a => Fin.ext (by
    match a with
    | ⟨0, _⟩ => exact (rhs_den1_0 _ _).trans hk
    | ⟨1, _⟩ => exact rhs_den1_1 _ _)
  rw [el, er]

/-! ### The second dense layer's product [4000, 64] × [64, 128], read at an entry -/

/-- The left operand's row is the result's row. -/
theorem lhs_den2_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
/-- The left operand's column is the contracted position. -/
theorem lhs_den2_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
/-- The right operand's row is the contracted position. -/
theorem rhs_den2_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
/-- The right operand's column is the result's column. -/
theorem rhs_den2_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The product into the zero accumulator, at row p and column c: the sum over the 64 contracted positions. -/
theorem den2_apply (L : FVec Ideal S4000x64 .bf16) (R : FVec Ideal S64x128 .bf16) (p : Fin 4000) (c : Fin 128) :
    matmul dot_S4000x64_S64x128_S4000x128_1_0_0_1_n_n none L R (constant (F := Ideal) S4000x128 .f32 0x00000000#32) (ix2 p c)
      = ∑ k : Fin 64, L (ix2 p k) * R (ix2 k c) := by
  refine (Ideal.matmul_constant_zero_apply dot_S4000x64_S64x128_S4000x128_1_0_0_1_n_n none L R (ix2 p c)).trans ?_
  rw [← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p c) ((contrEquiv1 dot_S4000x64_S64x128_S4000x128_1_0_0_1_n_n 64 rfl rfl).symm k) = ix2 p k := funext fun a => Fin.ext (by
    match a with
    | ⟨0, _⟩ => exact lhs_den2_0 _ _
    | ⟨1, _⟩ => exact (lhs_den2_1 _ _).trans hk)
  have er : dot_S4000x64_S64x128_S4000x128_1_0_0_1_n_n.rhsIdx (ix2 p c) ((contrEquiv1 dot_S4000x64_S64x128_S4000x128_1_0_0_1_n_n 64 rfl rfl).symm k) = ix2 k c := funext fun a => Fin.ext (by
    match a with
    | ⟨0, _⟩ => exact (rhs_den2_0 _ _).trans hk
    | ⟨1, _⟩ => exact rhs_den2_1 _ _)
  rw [el, er]

/-! ### The square root and x · σ(x), at an index -/

/-- A square root at an index is the extended square root of the entry. -/
theorem sqrt_at {s : Shape} (V : FVec Ideal s .f32) (i : s.Idx) : sqrt V i = Ideal.sqrt (V i) := rfl

/-- x · σ(x) at an index, once the entry is known. -/
theorem silu_at {s : Shape} (V : FVec Ideal s .f32) (i : s.Idx) (p : EReal) (h : V i = p) :
    mulf V (logistic V) i = silu p := by
  subst h; rfl

/-! ### Halves of a 128-wide row, the component rows of x1, a bias row, the joined row -/

/-- The first half of a 128-wide block, at (p, j): the block at (p, j). -/
theorem lo_slice (V : FVec Ideal S4000x128 .f32) (h : S4000x128.Slices ![0, 0] S4000x64) (p : Fin 4000) (j : Fin 64) :
    extractStridedSlice S4000x64 ![0, 0] V h (ix2 p j) = V (ix2 p (lo j)) :=
  slice2_axis1_apply 0 V h p j (lo j) (Nat.zero_add _).symm

/-- The second half of a 128-wide block, at (p, j): the block at (p, 64 + j). -/
theorem hi_slice (V : FVec Ideal S4000x128 .f32) (h : S4000x128.Slices ![0, 64] S4000x64) (p : Fin 4000) (j : Fin 64) :
    extractStridedSlice S4000x64 ![0, 64] V h (ix2 p j) = V (ix2 p (hi j)) :=
  slice2_axis1_apply 64 V h p j (hi j) rfl

/-- Columns 128 c … 128 c + 127 of row r of x1 are component c of the atom's vector features. -/
theorem comp_slice (c : Fin 3) (off : Nat) (hoff : off = 128 * c.val) (h : S4000x384.Slices ![0, off] S4000x128) (k : Fin 128) :
    extractStridedSlice S4000x128 ![0, off] (k0_pay2 x1) h (ix2 r k) = (atomK x0 x1 x2 r).v c k := by
  refine (slice2_axis1_apply off (k0_pay2 x1) h r k ⟨128 * c.val + k.val, by have := c.isLt; have := k.isLt; omega⟩ (by show 128 * c.val + k.val = off + k.val; omega)).trans ?_
  unfold k0_pay2
  rw [shapeCast_self]
  rfl

/-- A 64-vector laid as one row and repeated over the 4000 rows reads, at (p, j), its entry j. -/
theorem bias64_at (b : Vec Ideal S64 .f32) (h1 : S64.ShapeCasts S1x64) (h2 : S1x64.Broadcasts S4000x64) (p : Fin 4000) (j : Fin 64) :
    broadcastTo S4000x64 (shapeCast S1x64 b h1) h2 (ix2 p j) = b (ix1 j) :=
  (broadcastTo_1b_ab_apply _ h2 p j).trans (shapeCast_a_1a_apply b h1 0 j)

/-- A 128-vector laid as one row and repeated over the 4000 rows reads, at (p, o), its entry o. -/
theorem bias128_at (b : Vec Ideal S128 .f32) (h1 : S128.ShapeCasts S1x128) (h2 : S1x128.Broadcasts S4000x128) (p : Fin 4000) (o : Fin 128) :
    broadcastTo S4000x128 (shapeCast S1x128 b h1) h2 (ix2 p o) = b (ix1 o) :=
  (broadcastTo_1b_ab_apply _ h2 p o).trans (shapeCast_a_1a_apply b h1 0 o)

/-- The scalars joined with a 64-wide block N, at (r, k): the scalars below column 128, N at column k - 128 from there on. -/
theorem cat_at (N : FVec Ideal S4000x64 .f32) (h : Shape.Concatenates [S4000x128, S4000x64] S4000x192 1) (k : Fin 192) :
    concatenate S4000x192 1 [⟨S4000x128, x0⟩, ⟨S4000x64, N⟩] h (ix2 r k)
      = if hk : k.val < 128 then x0 (ix2 r ⟨k.val, hk⟩) else N (ix2 r ⟨k.val - 128, by have := k.isLt; omega⟩) := by
  by_cases hk : k.val < 128
  · rw [dif_pos hk]
    exact concatenate_pair_apply_left 1 x0 N h (ix2 r k) rfl (ix2 r ⟨k.val, hk⟩) (fun b => by
      match b with
      | ⟨0, _⟩ => rfl
      | ⟨1, _⟩ => rfl)
  · rw [dif_neg hk]
    exact concatenate_pair_apply_right 1 x0 N h (ix2 r k) rfl rfl (ix2 r ⟨k.val - 128, by have := k.isLt; omega⟩) (fun b hb => by
      match b, hb with
      | ⟨0, _⟩, _ => rfl
      | ⟨1, _⟩, hb => exact absurd (Fin.ext rfl) hb) (by show (k.val - 128) + 128 = k.val; omega)

/-! ### Block 1, stage by stage -/

/-- Component c's slab of x1 times the mixing matrix, at (r, o): the specification's mix of component c. -/
theorem comp_row (c : Fin 3) (off : Nat) (hoff : off = 128 * c.val) (h : S4000x384.Slices ![0, off] S4000x128) (o : Fin 128) :
    matmul dot_S4000x128_S128x128_S4000x128_1_0_0_1_n_n none (truncf .bf16 (extractStridedSlice S4000x128 ![0, off] (k0_pay2 x1) h) bitsLt_bf16_f32) (k0_pay3 x3)
        (constant (F := Ideal) S4000x128 .f32 0x00000000#32) (ix2 r o)
      = mixA (wK x3 x4 x5 x6 x7 x8 x9 x10 x11 x12 x13 x14 x15 x16) (atomK x0 x1 x2 r) c o := by
  refine (mix_apply _ _ r o).trans ?_
  refine Finset.sum_congr rfl fun k _ => ?_
  exact congrArg₂ (· * ·) ((truncf_apply (ψ := .bf16) _ bitsLt_bf16_f32 _).trans (comp_slice x0 x1 x2 r c off hoff h k)) rfl

/-- The mix of component 0. -/
theorem pay4_row (o : Fin 128) :
    k0_pay4 x1 x3 (ix2 r o) = mixA (wK x3 x4 x5 x6 x7 x8 x9 x10 x11 x12 x13 x14 x15 x16) (atomK x0 x1 x2 r) 0 o := by
  unfold k0_pay4
  exact comp_row x0 x1 x2 x3 x4 x5 x6 x7 x8 x9 x10 x11 x12 x13 x14 x15 x16 r 0 0 rfl _ o

/-- The mix of component 1. -/
theorem pay5_row (o : Fin 128) :
    k0_pay5 x1 x3 (ix2 r o) = mixA (wK x3 x4 x5 x6 x7 x8 x9 x10 x11 x12 x13 x14 x15 x16) (atomK x0 x1 x2 r) 1 o := by
  unfold k0_pay5
  exact comp_row x0 x1 x2 x3 x4 x5 x6 x7 x8 x9 x10 x11 x12 x13 x14 x15 x16 r 1 128 rfl _ o

/-- The mix of component 2. -/
theorem pay6_row (o : Fin 128) :
    k0_pay6 x1 x3 (ix2 r o) = mixA (wK x3 x4 x5 x6 x7 x8 x9 x10 x11 x12 x13 x14 x15 x16) (atomK x0 x1 x2 r) 2 o := by
  unfold k0_pay6
  exact comp_row x0 x1 x2 x3 x4 x5 x6 x7 x8 x9 x10 x11 x12 x13 x14 x15 x16 r 2 256 rfl _ o

/-- The second half of component 0's mix. -/
theorem pay7_row (j : Fin 64) :
    k0_pay7 x1 x3 (ix2 r j) = mixA (wK x3 x4 x5 x6 x7 x8 x9 x10 x11 x12 x13 x14 x15 x16) (atomK x0 x1 x2 r) 0 (hi j) := by
  unfold k0_pay7
  exact (hi_slice _ _ r j).trans (pay4_row x0 x1 x2 x3 x4 x5 x6 x7 x8 x9 x10 x11 x12 x13 x14 x15 x16 r (hi j))

/-- The second half of component 1's mix. -/
theorem pay8_row (j : Fin 64) :
    k0_pay8 x1 x3 (ix2 r j) = mixA (wK x3 x4 x5 x6 x7 x8 x9 x10 x11 x12 x13 x14 x15 x16) (atomK x0 x1 x2 r) 1 (hi j) := by
  unfold k0_pay8
  exact (hi_slice _ _ r j).trans (pay5_row x0 x1 x2 x3 x4 x5 x6 x7 x8 x9 x10 x11 x12 x13 x14 x15 x16 r (hi j))

/-- The second half of component 2's mix. -/
theorem pay9_row (j : Fin 64) :
    k0_pay9 x1 x3 (ix2 r j) = mixA (wK x3 x4 x5 x6 x7 x8 x9 x10 x11 x12 x13 x14 x15 x16) (atomK x0 x1 x2 r) 2 (hi j) := by
  unfold k0_pay9
  exact (hi_slice _ _ r j).trans (pay6_row x0 x1 x2 x3 x4 x5 x6 x7 x8 x9 x10 x11 x12 x13 x14 x15 x16 r (hi j))

/-- The norm over the three components of the first halves of the mixes, at (r, j). -/
theorem norm_row (j : Fin 64) :
    sqrt (addf (addf (mulf (extractStridedSlice S4000x64 ![0, 0] (k0_pay4 x1 x3) slices_S4000x128_o0_0_S4000x64) (extractStridedSlice S4000x64 ![0, 0] (k0_pay4 x1 x3) slices_S4000x128_o0_0_S4000x64)) (mulf (extractStridedSlice S4000x64 ![0, 0] (k0_pay5 x1 x3) slices_S4000x128_o0_0_S4000x64) (extractStridedSlice S4000x64 ![0, 0] (k0_pay5 x1 x3) slices_S4000x128_o0_0_S4000x64)))
        (mulf (extractStridedSlice S4000x64 ![0, 0] (k0_pay6 x1 x3) slices_S4000x128_o0_0_S4000x64) (extractStridedSlice S4000x64 ![0, 0] (k0_pay6 x1 x3) slices_S4000x128_o0_0_S4000x64))) (ix2 r j)
      = normA (wK x3 x4 x5 x6 x7 x8 x9 x10 x11 x12 x13 x14 x15 x16) (atomK x0 x1 x2 r) j := by
  have e0 := (lo_slice (k0_pay4 x1 x3) slices_S4000x128_o0_0_S4000x64 r j).trans (pay4_row x0 x1 x2 x3 x4 x5 x6 x7 x8 x9 x10 x11 x12 x13 x14 x15 x16 r (lo j))
  have e1 := (lo_slice (k0_pay5 x1 x3) slices_S4000x128_o0_0_S4000x64 r j).trans (pay5_row x0 x1 x2 x3 x4 x5 x6 x7 x8 x9 x10 x11 x12 x13 x14 x15 x16 r (lo j))
  have e2 := (lo_slice (k0_pay6 x1 x3) slices_S4000x128_o0_0_S4000x64 r j).trans (pay6_row x0 x1 x2 x3 x4 x5 x6 x7 x8 x9 x10 x11 x12 x13 x14 x15 x16 r (lo j))
  unfold normA norm3
  refine (sqrt_at _ _).trans (congrArg Ideal.sqrt ?_)
  exact congrArg₂ (· + ·) (congrArg₂ (· + ·) (congrArg₂ (· * ·) e0 e0) (congrArg₂ (· * ·) e1 e1)) (congrArg₂ (· * ·) e2 e2)

/-- The hidden layer of block 1. -/
theorem pay10_row (j : Fin 64) :
    k0_pay10 x0 x1 x3 x4 x5 (ix2 r j) = hidA (wK x3 x4 x5 x6 x7 x8 x9 x10 x11 x12 x13 x14 x15 x16) (atomK x0 x1 x2 r) j := by
  unfold k0_pay10
  refine silu_at _ _ _ ?_
  refine (addf_apply _ _ _).trans ?_
  unfold preA
  refine congrArg₂ (· + ·) ?_ (bias64_at x5 _ _ r j)
  refine (den1_apply _ _ r j).trans (Finset.sum_congr rfl fun k _ => ?_)
  refine congrArg₂ (· * ·) ((truncf_apply (ψ := .bf16) _ bitsLt_bf16_f32 _).trans ?_) rfl
  refine (cat_at x0 r _ _ k).trans ?_
  unfold catA
  by_cases hk : k.val < 128
  · rw [dif_pos hk, dif_pos hk]
    rfl
  · rw [dif_neg hk, dif_neg hk]
    exact norm_row x0 x1 x2 x3 x4 x5 x6 x7 x8 x9 x10 x11 x12 x13 x14 x15 x16 r ⟨k.val - 128, by have := k.isLt; omega⟩

/-- The second dense layer of block 1. -/
theorem pay12_row (o : Fin 128) :
    k0_pay12 (k0_pay10 x0 x1 x3 x4 x5) (k0_pay11 x6) x7 (ix2 r o)
      = outA (wK x3 x4 x5 x6 x7 x8 x9 x10 x11 x12 x13 x14 x15 x16) (atomK x0 x1 x2 r) o := by
  unfold k0_pay12
  refine (addf_apply _ _ _).trans ?_
  unfold outA
  refine congrArg₂ (· + ·) ?_ (bias128_at x7 _ _ r o)
  refine (den2_apply _ _ r o).trans (Finset.sum_congr rfl fun k _ => ?_)
  exact congrArg₂ (· * ·) ((truncf_apply (ψ := .bf16) _ bitsLt_bf16_f32 _).trans (pay10_row x0 x1 x2 x3 x4 x5 x6 x7 x8 x9 x10 x11 x12 x13 x14 x15 x16 r k)) rfl

/-- The gate of block 1. -/
theorem pay13_row (j : Fin 64) :
    k0_pay13 (k0_pay10 x0 x1 x3 x4 x5) (k0_pay11 x6) x7 (ix2 r j)
      = gateA (wK x3 x4 x5 x6 x7 x8 x9 x10 x11 x12 x13 x14 x15 x16) (atomK x0 x1 x2 r) j := by
  unfold k0_pay13
  exact (hi_slice _ _ r j).trans (pay12_row x0 x1 x2 x3 x4 x5 x6 x7 x8 x9 x10 x11 x12 x13 x14 x15 x16 r (hi j))

end Cert.KernelIdeal.RowValue

end
-- ==== Proof.KernelBlock2.lean ====
/-
  Block 2 of the kernel's body and the dense network after it, read at one row of the block.

  Block 2 takes block 1's gated vector output (the gate times the second half of each component's mix) and its
  scalar output; its own widths are 64 → 2 for the mix and 65 → 1 → 2 for the dense layers, so its norm, hidden unit
  and gate are single columns. The seven features of the dense network are the three gated components, the position
  and block 2's scalar output, in that order.
-/
import proofs.«118726_j67070209295171_1_alg».proof.Proof.KernelBlock1

noncomputable section

open scoped BigOperators

namespace Cert.KernelIdeal.RowValue

open Cert.KernelIdeal Cert.KernelIdeal.Gen Cert.AtomSpec Idealize.ShloMosaic Idealize.ShloMosaic.ValueIdx

variable (x0 : Vec Ideal S4000x128 .f32) (x1 : Vec Ideal S4000x384 .f32) (x2 : Vec Ideal S4000x3 .f32)
  (x3 : Vec Ideal S128x128 .f32) (x4 : Vec Ideal S192x64 .f32) (x5 : Vec Ideal S64 .f32) (x6 : Vec Ideal S64x128 .f32)
  (x7 : Vec Ideal S128 .f32) (x8 : Vec Ideal S64x2 .f32) (x9 : Vec Ideal S65x1 .f32) (x10 : Vec Ideal S1 .f32)
  (x11 : Vec Ideal S1x2 .f32) (x12 : Vec Ideal S2 .f32) (x13 : Vec Ideal S7x10 .f32) (x14 : Vec Ideal S10 .f32)
  (x15 : Vec Ideal S10x3 .f32) (x16 : Vec Ideal S3 .f32) (r : Fin 4000)

/-! ### Pointwise and layout operations read at an index -/

/-- Narrowing f32 to bf16 changes no entry: on the extended reals a format change is the identity. -/
theorem narrow_apply {s : Shape} (Y : FVec Ideal s .f32) (h : FTy.bits .bf16 < FTy.bits .f32) (i : s.Idx) :
    (truncf .bf16 Y h : FVec Ideal s .bf16) i = Y i := rfl

/-- x · σ(x) of a vector, at an index, is x · σ(x) of the entry. -/
theorem silu_vec {s : Shape} (X : FVec Ideal s .f32) (i : s.Idx) : mulf X (logistic X) i = silu (X i) := rfl

/-- The root of three squares added from the left, at an index, is the norm of the three entries. -/
theorem norm3_vec {s : Shape} (A B C : FVec Ideal s .f32) (i : s.Idx) :
    sqrt (addf (addf (mulf A A) (mulf B B)) (mulf C C)) i = norm3 (A i) (B i) (C i) := rfl

/-- A bias [n] read as one row [1, n] and repeated over the 4000 rows is, at (r, c), its entry c. -/
theorem bias_row {n : ℕ} (b : (⟨1, ![n]⟩ : Shape).Idx → EReal) (h1 : (⟨1, ![n]⟩ : Shape).ShapeCasts ⟨2, ![1, n]⟩)
    (h2 : (⟨2, ![1, n]⟩ : Shape).Broadcasts ⟨2, ![4000, n]⟩) (r : Fin 4000) (c : Fin n) :
    broadcastTo ⟨2, ![4000, n]⟩ (shapeCast ⟨2, ![1, n]⟩ b h1) h2 (ix2 r c) = b (ix1 c) :=
  (broadcastTo_1b_ab_apply _ h2 r c).trans (shapeCast_a_1a_apply b h1 0 c)

/-! ### The product [4000, 64] · [64, 2] read at (r, o) -/

theorem lhs_mix2_0 (i : S4000x2.Idx) (q : dot_S4000x64_S64x2_S4000x2_1_0_0_1_n_n.contr.Idx) :
    (dot_S4000x64_S64x2_S4000x2_1_0_0_1_n_n.lhsIdx i q 0).val = (i 0).val := by
  unfold DotDims.lhsIdx
  rw [dif_neg (show ¬(0 : Fin S4000x64.rank) ∈ dot_S4000x64_S64x2_S4000x2_1_0_0_1_n_n.lhsBatch by decide), dif_pos (show (0 : Fin S4000x64.rank) ∈ dot_S4000x64_S64x2_S4000x2_1_0_0_1_n_n.lhsNonContracting by decide)]
  rfl
theorem lhs_mix2_1 (i : S4000x2.Idx) (q : dot_S4000x64_S64x2_S4000x2_1_0_0_1_n_n.contr.Idx) :
    (dot_S4000x64_S64x2_S4000x2_1_0_0_1_n_n.lhsIdx i q 1).val = (q ⟨0, by decide⟩).val :=
  dot_S4000x64_S64x2_S4000x2_1_0_0_1_n_n.lhsIdx_val_of_single rfl i q
theorem rhs_mix2_0 (i : S4000x2.Idx) (q : dot_S4000x64_S64x2_S4000x2_1_0_0_1_n_n.contr.Idx) :
    (dot_S4000x64_S64x2_S4000x2_1_0_0_1_n_n.rhsIdx i q 0).val = (q ⟨0, by decide⟩).val :=
  dot_S4000x64_S64x2_S4000x2_1_0_0_1_n_n.rhsIdx_val_of_single rfl i q
theorem rhs_mix2_1 (i : S4000x2.Idx) (q : dot_S4000x64_S64x2_S4000x2_1_0_0_1_n_n.contr.Idx) :
    (dot_S4000x64_S64x2_S4000x2_1_0_0_1_n_n.rhsIdx i q 1).val = (i 1).val := by
  unfold DotDims.rhsIdx
  rw [dif_neg (show ¬(1 : Fin S64x2.rank) ∈ dot_S4000x64_S64x2_S4000x2_1_0_0_1_n_n.rhsBatch by decide), dif_pos (show (1 : Fin S64x2.rank) ∈ dot_S4000x64_S64x2_S4000x2_1_0_0_1_n_n.rhsNonContracting by decide)]
  rfl

/-- Into the zero splat, entry (r, o) of the product is the sum over the 64 shared entries of row r times column o. -/
theorem matmul_mix2 {φ₁ φ₂ : FTy} (A : FVec Ideal S4000x64 φ₁) (B : FVec Ideal S64x2 φ₂) (r : Fin 4000) (o : Fin 2) :
    matmul dot_S4000x64_S64x2_S4000x2_1_0_0_1_n_n none A B (constant (F := Ideal) S4000x2 .f32 0x00000000#32) (ix2 r o)
      = ∑ k : Fin 64, A (ix2 r k) * B (ix2 k o) := by
  simp only [matmul]
  rw [Ideal.matmul_constant_zero_apply, ← Equiv.sum_comp (contrEquiv1 dot_S4000x64_S64x2_S4000x2_1_0_0_1_n_n 64 rfl rfl).symm]
  refine Finset.sum_congr rfl fun k _ => ?_
  have hk := contrEquiv1_symm_val dot_S4000x64_S64x2_S4000x2_1_0_0_1_n_n 64 rfl rfl k
  have el : dot_S4000x64_S64x2_S4000x2_1_0_0_1_n_n.lhsIdx (ix2 r o) ((contrEquiv1 dot_S4000x64_S64x2_S4000x2_1_0_0_1_n_n 64 rfl rfl).symm k) = ix2 r k := funext fun a => Fin.ext (by
    match a with
    | ⟨0, _⟩ => exact lhs_mix2_0 _ _
    | ⟨1, _⟩ => exact (lhs_mix2_1 _ _).trans hk)
  have er : dot_S4000x64_S64x2_S4000x2_1_0_0_1_n_n.rhsIdx (ix2 r o) ((contrEquiv1 dot_S4000x64_S64x2_S4000x2_1_0_0_1_n_n 64 rfl rfl).symm k) = ix2 k o := funext fun a => Fin.ext (by
    match a with
    | ⟨0, _⟩ => exact (rhs_mix2_0 _ _).trans hk
    | ⟨1, _⟩ => exact rhs_mix2_1 _ _)
  rw [el, er]

/-- The second mix of component 0. -/
theorem pay15_row (o : Fin 2) :
    k0_pay15 (k0_pay7 x1 x3) (k0_pay10 x0 x1 x3 x4 x5) (k0_pay11 x6) x7 x8 (ix2 r o) = mixB (wK x3 x4 x5 x6 x7 x8 x9 x10 x11 x12 x13 x14 x15 x16) (atomK x0 x1 x2 r) 0 o := by
  unfold k0_pay15
  refine (matmul_mix2 _ _ r o).trans ?_
  unfold mixB
  refine Finset.sum_congr rfl fun k _ => ?_
  show k0_pay13 (k0_pay10 x0 x1 x3 x4 x5) (k0_pay11 x6) x7 (ix2 r k) * k0_pay7 x1 x3 (ix2 r k) * x8 (ix2 k o) = _
  rw [pay13_row x0 x1 x2 x3 x4 x5 x6 x7 x8 x9 x10 x11 x12 x13 x14 x15 x16 r k, pay7_row x0 x1 x2 x3 x4 x5 x6 x7 x8 x9 x10 x11 x12 x13 x14 x15 x16 r k]
  rfl

/-- The second mix of component 1. -/
theorem pay16_row (o : Fin 2) :
    k0_pay16 (k0_pay8 x1 x3) (k0_pay10 x0 x1 x3 x4 x5) (k0_pay11 x6) x7 x8 (ix2 r o) = mixB (wK x3 x4 x5 x6 x7 x8 x9 x10 x11 x12 x13 x14 x15 x16) (atomK x0 x1 x2 r) 1 o := by
  unfold k0_pay16
  refine (matmul_mix2 _ _ r o).trans ?_
  unfold mixB
  refine Finset.sum_congr rfl fun k _ => ?_
  show k0_pay13 (k0_pay10 x0 x1 x3 x4 x5) (k0_pay11 x6) x7 (ix2 r k) * k0_pay8 x1 x3 (ix2 r k) * x8 (ix2 k o) = _
  rw [pay13_row x0 x1 x2 x3 x4 x5 x6 x7 x8 x9 x10 x11 x12 x13 x14 x15 x16 r k, pay8_row x0 x1 x2 x3 x4 x5 x6 x7 x8 x9 x10 x11 x12 x13 x14 x15 x16 r k]
  rfl

/-- The second mix of component 2. -/
theorem pay17_row (o : Fin 2) :
    k0_pay17 (k0_pay9 x1 x3) (k0_pay10 x0 x1 x3 x4 x5) (k0_pay11 x6) x7 x8 (ix2 r o) = mixB (wK x3 x4 x5 x6 x7 x8 x9 x10 x11 x12 x13 x14 x15 x16) (atomK x0 x1 x2 r) 2 o := by
  unfold k0_pay17
  refine (matmul_mix2 _ _ r o).trans ?_
  unfold mixB
  refine Finset.sum_congr rfl fun k _ => ?_
  show k0_pay13 (k0_pay10 x0 x1 x3 x4 x5) (k0_pay11 x6) x7 (ix2 r k) * k0_pay9 x1 x3 (ix2 r k) * x8 (ix2 k o) = _
  rw [pay13_row x0 x1 x2 x3 x4 x5 x6 x7 x8 x9 x10 x11 x12 x13 x14 x15 x16 r k, pay9_row x0 x1 x2 x3 x4 x5 x6 x7 x8 x9 x10 x11 x12 x13 x14 x15 x16 r k]
  rfl

/-- The second entry of component 0's second mix, as a column. -/
theorem pay18_row :
    k0_pay18 (k0_pay7 x1 x3) (k0_pay10 x0 x1 x3 x4 x5) (k0_pay11 x6) x7 x8 (ix2 r (0 : Fin 1)) = mixB (wK x3 x4 x5 x6 x7 x8 x9 x10 x11 x12 x13 x14 x15 x16) (atomK x0 x1 x2 r) 0 1 := by
  unfold k0_pay18
  refine (slice2_axis1_apply 1 _ _ r (0 : Fin 1) (1 : Fin 2) rfl).trans ?_
  exact pay15_row x0 x1 x2 x3 x4 x5 x6 x7 x8 x9 x10 x11 x12 x13 x14 x15 x16 r 1

/-- The second entry of component 1's second mix, as a column. -/
theorem pay19_row :
    k0_pay19 (k0_pay8 x1 x3) (k0_pay10 x0 x1 x3 x4 x5) (k0_pay11 x6) x7 x8 (ix2 r (0 : Fin 1)) = mixB (wK x3 x4 x5 x6 x7 x8 x9 x10 x11 x12 x13 x14 x15 x16) (atomK x0 x1 x2 r) 1 1 := by
  unfold k0_pay19
  refine (slice2_axis1_apply 1 _ _ r (0 : Fin 1) (1 : Fin 2) rfl).trans ?_
  exact pay16_row x0 x1 x2 x3 x4 x5 x6 x7 x8 x9 x10 x11 x12 x13 x14 x15 x16 r 1

/-- The second entry of component 2's second mix, as a column. -/
theorem pay20_row :
    k0_pay20 (k0_pay9 x1 x3) (k0_pay10 x0 x1 x3 x4 x5) (k0_pay11 x6) x7 x8 (ix2 r (0 : Fin 1)) = mixB (wK x3 x4 x5 x6 x7 x8 x9 x10 x11 x12 x13 x14 x15 x16) (atomK x0 x1 x2 r) 2 1 := by
  unfold k0_pay20
  refine (slice2_axis1_apply 1 _ _ r (0 : Fin 1) (1 : Fin 2) rfl).trans ?_
  exact pay17_row x0 x1 x2 x3 x4 x5 x6 x7 x8 x9 x10 x11 x12 x13 x14 x15 x16 r 1

/-! ### The product [4000, 65] · [65, 1] read at (r, o) -/

theorem lhs_hid2_0 (i : S4000x1.Idx) (q : dot_S4000x65_S65x1_S4000x1_1_0_0_1_n_n.contr.Idx) :
    (dot_S4000x65_S65x1_S4000x1_1_0_0_1_n_n.lhsIdx i q 0).val = (i 0).val := by
  unfold DotDims.lhsIdx
  rw [dif_neg (show ¬(0 : Fin S4000x65.rank) ∈ dot_S4000x65_S65x1_S4000x1_1_0_0_1_n_n.lhsBatch by decide), dif_pos (show (0 : Fin S4000x65.rank) ∈ dot_S4000x65_S65x1_S4000x1_1_0_0_1_n_n.lhsNonContracting by decide)]
  rfl
theorem lhs_hid2_1 (i : S4000x1.Idx) (q : dot_S4000x65_S65x1_S4000x1_1_0_0_1_n_n.contr.Idx) :
    (dot_S4000x65_S65x1_S4000x1_1_0_0_1_n_n.lhsIdx i q 1).val = (q ⟨0, by decide⟩).val :=
  dot_S4000x65_S65x1_S4000x1_1_0_0_1_n_n.lhsIdx_val_of_single rfl i q
theorem rhs_hid2_0 (i : S4000x1.Idx) (q : dot_S4000x65_S65x1_S4000x1_1_0_0_1_n_n.contr.Idx) :
    (dot_S4000x65_S65x1_S4000x1_1_0_0_1_n_n.rhsIdx i q 0).val = (q ⟨0, by decide⟩).val :=
  dot_S4000x65_S65x1_S4000x1_1_0_0_1_n_n.rhsIdx_val_of_single rfl i q
theorem rhs_hid2_1 (i : S4000x1.Idx) (q : dot_S4000x65_S65x1_S4000x1_1_0_0_1_n_n.contr.Idx) :
    (dot_S4000x65_S65x1_S4000x1_1_0_0_1_n_n.rhsIdx i q 1).val = (i 1).val := by
  unfold DotDims.rhsIdx
  rw [dif_neg (show ¬(1 : Fin S65x1.rank) ∈ dot_S4000x65_S65x1_S4000x1_1_0_0_1_n_n.rhsBatch by decide), dif_pos (show (1 : Fin S65x1.rank) ∈ dot_S4000x65_S65x1_S4000x1_1_0_0_1_n_n.rhsNonContracting by decide)]
  rfl

/-- Into the zero splat, entry (r, o) of the product is the sum over the 65 shared entries of row r times column o. -/
theorem matmul_hid2 {φ₁ φ₂ : FTy} (A : FVec Ideal S4000x65 φ₁) (B : FVec Ideal S65x1 φ₂) (r : Fin 4000) (o : Fin 1) :
    matmul dot_S4000x65_S65x1_S4000x1_1_0_0_1_n_n none A B (constant (F := Ideal) S4000x1 .f32 0x00000000#32) (ix2 r o)
      = ∑ k : Fin 65, A (ix2 r k) * B (ix2 k o) := by
  simp only [matmul]
  rw [Ideal.matmul_constant_zero_apply, ← Equiv.sum_comp (contrEquiv1 dot_S4000x65_S65x1_S4000x1_1_0_0_1_n_n 65 rfl rfl).symm]
  refine Finset.sum_congr rfl fun k _ => ?_
  have hk := contrEquiv1_symm_val dot_S4000x65_S65x1_S4000x1_1_0_0_1_n_n 65 rfl rfl k
  have el : dot_S4000x65_S65x1_S4000x1_1_0_0_1_n_n.lhsIdx (ix2 r o) ((contrEquiv1 dot_S4000x65_S65x1_S4000x1_1_0_0_1_n_n 65 rfl rfl).symm k) = ix2 r k := funext fun a => Fin.ext (by
    match a with
    | ⟨0, _⟩ => exact lhs_hid2_0 _ _
    | ⟨1, _⟩ => exact (lhs_hid2_1 _ _).trans hk)
  have er : dot_S4000x65_S65x1_S4000x1_1_0_0_1_n_n.rhsIdx (ix2 r o) ((contrEquiv1 dot_S4000x65_S65x1_S4000x1_1_0_0_1_n_n 65 rfl rfl).symm k) = ix2 k o := funext fun a => Fin.ext (by
    match a with
    | ⟨0, _⟩ => exact (rhs_hid2_0 _ _).trans hk
    | ⟨1, _⟩ => exact rhs_hid2_1 _ _)
  rw [el, er]

/-- The first entry of component 0's second mix. -/
theorem pay15_col0 :
    extractStridedSlice S4000x1 ![0, 0] (k0_pay15 (k0_pay7 x1 x3) (k0_pay10 x0 x1 x3 x4 x5) (k0_pay11 x6) x7 x8) slices_S4000x2_o0_0_S4000x1 (ix2 r (0 : Fin 1))
      = mixB (wK x3 x4 x5 x6 x7 x8 x9 x10 x11 x12 x13 x14 x15 x16) (atomK x0 x1 x2 r) 0 0 :=
  (slice2_axis1_apply 0 _ _ r (0 : Fin 1) (0 : Fin 2) rfl).trans (pay15_row x0 x1 x2 x3 x4 x5 x6 x7 x8 x9 x10 x11 x12 x13 x14 x15 x16 r 0)

/-- The first entry of component 1's second mix. -/
theorem pay16_col0 :
    extractStridedSlice S4000x1 ![0, 0] (k0_pay16 (k0_pay8 x1 x3) (k0_pay10 x0 x1 x3 x4 x5) (k0_pay11 x6) x7 x8) slices_S4000x2_o0_0_S4000x1 (ix2 r (0 : Fin 1))
      = mixB (wK x3 x4 x5 x6 x7 x8 x9 x10 x11 x12 x13 x14 x15 x16) (atomK x0 x1 x2 r) 1 0 :=
  (slice2_axis1_apply 0 _ _ r (0 : Fin 1) (0 : Fin 2) rfl).trans (pay16_row x0 x1 x2 x3 x4 x5 x6 x7 x8 x9 x10 x11 x12 x13 x14 x15 x16 r 0)

/-- The first entry of component 2's second mix. -/
theorem pay17_col0 :
    extractStridedSlice S4000x1 ![0, 0] (k0_pay17 (k0_pay9 x1 x3) (k0_pay10 x0 x1 x3 x4 x5) (k0_pay11 x6) x7 x8) slices_S4000x2_o0_0_S4000x1 (ix2 r (0 : Fin 1))
      = mixB (wK x3 x4 x5 x6 x7 x8 x9 x10 x11 x12 x13 x14 x15 x16) (atomK x0 x1 x2 r) 2 0 :=
  (slice2_axis1_apply 0 _ _ r (0 : Fin 1) (0 : Fin 2) rfl).trans (pay17_row x0 x1 x2 x3 x4 x5 x6 x7 x8 x9 x10 x11 x12 x13 x14 x15 x16 r 0)

/-- The first half of block 1's second dense layer: what its scalar output is x · σ(x) of. -/
theorem pay12_lo (j : Fin 64) :
    extractStridedSlice S4000x64 ![0, 0] (k0_pay12 (k0_pay10 x0 x1 x3 x4 x5) (k0_pay11 x6) x7) slices_S4000x128_o0_0_S4000x64 (ix2 r j)
      = outA (wK x3 x4 x5 x6 x7 x8 x9 x10 x11 x12 x13 x14 x15 x16) (atomK x0 x1 x2 r) (lo j) :=
  (slice2_axis1_apply 0 _ _ r j (lo j) (Nat.zero_add _).symm).trans (pay12_row x0 x1 x2 x3 x4 x5 x6 x7 x8 x9 x10 x11 x12 x13 x14 x15 x16 r (lo j))

/-- The scalars followed by one norm, read at row r: the specification's joined row, whatever the two pieces are
    called, once their rows are known. -/
theorem catB_row (P : FVec Ideal S4000x64 .f32) (Q : FVec Ideal S4000x1 .f32)
    (hP : ∀ j : Fin 64, P (ix2 r j) = sA (wK x3 x4 x5 x6 x7 x8 x9 x10 x11 x12 x13 x14 x15 x16) (atomK x0 x1 x2 r) j) (hQ : Q (ix2 r (0 : Fin 1)) = normB (wK x3 x4 x5 x6 x7 x8 x9 x10 x11 x12 x13 x14 x15 x16) (atomK x0 x1 x2 r)) (k : Fin 65) :
    concatenate S4000x65 1 [⟨S4000x64, P⟩, ⟨S4000x1, Q⟩] concatenates_S4000x64_S4000x1_S4000x65_d1 (ix2 r k)
      = catB (wK x3 x4 x5 x6 x7 x8 x9 x10 x11 x12 x13 x14 x15 x16) (atomK x0 x1 x2 r) k := by
  unfold catB
  by_cases hk : k.val < 64
  · rw [dif_pos hk]
    refine (concatenate_pair_apply_left 1 P Q concatenates_S4000x64_S4000x1_S4000x65_d1 (ix2 r k) rfl (ix2 r ⟨k.val, hk⟩)
      (fun b => match b with | ⟨0, _⟩ => rfl | ⟨1, _⟩ => rfl)).trans ?_
    exact hP ⟨k.val, hk⟩
  · rw [dif_neg hk]
    refine (concatenate_pair_apply_right 1 P Q concatenates_S4000x64_S4000x1_S4000x65_d1 (ix2 r k) rfl rfl (ix2 r (0 : Fin 1))
      (fun b hb => match b, hb with | ⟨0, _⟩, _ => rfl | ⟨1, _⟩, hb => absurd (Fin.ext rfl) hb) ?_).trans hQ
    show 0 + 64 = k.val
    have := k.isLt
    omega

/-- Block 2's hidden unit. -/
theorem pay22_row :
    k0_pay22 (k0_pay7 x1 x3) (k0_pay8 x1 x3) (k0_pay9 x1 x3) (k0_pay10 x0 x1 x3 x4 x5) (k0_pay11 x6) x7 x8 x9 x10 (ix2 r (0 : Fin 1)) = hidB (wK x3 x4 x5 x6 x7 x8 x9 x10 x11 x12 x13 x14 x15 x16) (atomK x0 x1 x2 r) := by
  unfold k0_pay22
  refine (narrow_apply _ _ _).trans ?_
  refine (silu_vec _ _).trans ?_
  unfold hidB
  refine congrArg silu ?_
  refine (addf_apply _ _ _).trans ?_
  refine (congrArg₂ (· + ·) (matmul_hid2 _ _ r 0) (bias_row x10 _ _ r 0)).trans ?_
  unfold preB
  refine congrArg₂ (· + ·) (Finset.sum_congr rfl fun k _ => ?_) rfl
  refine congrArg₂ (· * ·) ?_ rfl
  refine (narrow_apply _ _ _).trans ?_
  refine catB_row x0 x1 x2 x3 x4 x5 x6 x7 x8 x9 x10 x11 x12 x13 x14 x15 x16 r _ _ (fun j => ?_) ?_ k
  · refine (silu_vec _ _).trans ?_
    exact congrArg silu (pay12_lo x0 x1 x2 x3 x4 x5 x6 x7 x8 x9 x10 x11 x12 x13 x14 x15 x16 r j)
  · refine (norm3_vec _ _ _ _).trans ?_
    unfold normB
    rw [pay15_col0 x0 x1 x2 x3 x4 x5 x6 x7 x8 x9 x10 x11 x12 x13 x14 x15 x16 r, pay16_col0 x0 x1 x2 x3 x4 x5 x6 x7 x8 x9 x10 x11 x12 x13 x14 x15 x16 r, pay17_col0 x0 x1 x2 x3 x4 x5 x6 x7 x8 x9 x10 x11 x12 x13 x14 x15 x16 r]

/-! ### The product [4000, 1] · [1, 2] read at (r, o) -/

theorem lhs_out2_0 (i : S4000x2.Idx) (q : dot_S4000x1_S1x2_S4000x2_1_0_0_1_n_n.contr.Idx) :
    (dot_S4000x1_S1x2_S4000x2_1_0_0_1_n_n.lhsIdx i q 0).val = (i 0).val := by
  unfold DotDims.lhsIdx
  rw [dif_neg (show ¬(0 : Fin S4000x1.rank) ∈ dot_S4000x1_S1x2_S4000x2_1_0_0_1_n_n.lhsBatch by decide), dif_pos (show (0 : Fin S4000x1.rank) ∈ dot_S4000x1_S1x2_S4000x2_1_0_0_1_n_n.lhsNonContracting by decide)]
  rfl
theorem lhs_out2_1 (i : S4000x2.Idx) (q : dot_S4000x1_S1x2_S4000x2_1_0_0_1_n_n.contr.Idx) :
    (dot_S4000x1_S1x2_S4000x2_1_0_0_1_n_n.lhsIdx i q 1).val = (q ⟨0, by decide⟩).val :=
  dot_S4000x1_S1x2_S4000x2_1_0_0_1_n_n.lhsIdx_val_of_single rfl i q
theorem rhs_out2_0 (i : S4000x2.Idx) (q : dot_S4000x1_S1x2_S4000x2_1_0_0_1_n_n.contr.Idx) :
    (dot_S4000x1_S1x2_S4000x2_1_0_0_1_n_n.rhsIdx i q 0).val = (q ⟨0, by decide⟩).val :=
  dot_S4000x1_S1x2_S4000x2_1_0_0_1_n_n.rhsIdx_val_of_single rfl i q
theorem rhs_out2_1 (i : S4000x2.Idx) (q : dot_S4000x1_S1x2_S4000x2_1_0_0_1_n_n.contr.Idx) :
    (dot_S4000x1_S1x2_S4000x2_1_0_0_1_n_n.rhsIdx i q 1).val = (i 1).val := by
  unfold DotDims.rhsIdx
  rw [dif_neg (show ¬(1 : Fin S1x2.rank) ∈ dot_S4000x1_S1x2_S4000x2_1_0_0_1_n_n.rhsBatch by decide), dif_pos (show (1 : Fin S1x2.rank) ∈ dot_S4000x1_S1x2_S4000x2_1_0_0_1_n_n.rhsNonContracting by decide)]
  rfl

/-- Into the zero splat, entry (r, o) of the product is the sum over the one shared entry of row r times column o. -/
theorem matmul_out2 {φ₁ φ₂ : FTy} (A : FVec Ideal S4000x1 φ₁) (B : FVec Ideal S1x2 φ₂) (r : Fin 4000) (o : Fin 2) :
    matmul dot_S4000x1_S1x2_S4000x2_1_0_0_1_n_n none A B (constant (F := Ideal) S4000x2 .f32 0x00000000#32) (ix2 r o)
      = ∑ k : Fin 1, A (ix2 r k) * B (ix2 k o) := by
  simp only [matmul]
  rw [Ideal.matmul_constant_zero_apply, ← Equiv.sum_comp (contrEquiv1 dot_S4000x1_S1x2_S4000x2_1_0_0_1_n_n 1 rfl rfl).symm]
  refine Finset.sum_congr rfl fun k _ => ?_
  have hk := contrEquiv1_symm_val dot_S4000x1_S1x2_S4000x2_1_0_0_1_n_n 1 rfl rfl k
  have el : dot_S4000x1_S1x2_S4000x2_1_0_0_1_n_n.lhsIdx (ix2 r o) ((contrEquiv1 dot_S4000x1_S1x2_S4000x2_1_0_0_1_n_n 1 rfl rfl).symm k) = ix2 r k := funext fun a => Fin.ext (by
    match a with
    | ⟨0, _⟩ => exact lhs_out2_0 _ _
    | ⟨1, _⟩ => exact (lhs_out2_1 _ _).trans hk)
  have er : dot_S4000x1_S1x2_S4000x2_1_0_0_1_n_n.rhsIdx (ix2 r o) ((contrEquiv1 dot_S4000x1_S1x2_S4000x2_1_0_0_1_n_n 1 rfl rfl).symm k) = ix2 k o := funext fun a => Fin.ext (by
    match a with
    | ⟨0, _⟩ => exact (rhs_out2_0 _ _).trans hk
    | ⟨1, _⟩ => exact rhs_out2_1 _ _)
  rw [el, er]

/-! ### The product [4000, 7] · [7, 10] read at (r, o) -/

theorem lhs_dense1_0 (i : S4000x10.Idx) (q : dot_S4000x7_S7x10_S4000x10_1_0_0_1_n_n.contr.Idx) :
    (dot_S4000x7_S7x10_S4000x10_1_0_0_1_n_n.lhsIdx i q 0).val = (i 0).val := by
  unfold DotDims.lhsIdx
  rw [dif_neg (show ¬(0 : Fin S4000x7.rank) ∈ dot_S4000x7_S7x10_S4000x10_1_0_0_1_n_n.lhsBatch by decide), dif_pos (show (0 : Fin S4000x7.rank) ∈ dot_S4000x7_S7x10_S4000x10_1_0_0_1_n_n.lhsNonContracting by decide)]
  rfl
theorem lhs_dense1_1 (i : S4000x10.Idx) (q : dot_S4000x7_S7x10_S4000x10_1_0_0_1_n_n.contr.Idx) :
    (dot_S4000x7_S7x10_S4000x10_1_0_0_1_n_n.lhsIdx i q 1).val = (q ⟨0, by decide⟩).val :=
  dot_S4000x7_S7x10_S4000x10_1_0_0_1_n_n.lhsIdx_val_of_single rfl i q
theorem rhs_dense1_0 (i : S4000x10.Idx) (q : dot_S4000x7_S7x10_S4000x10_1_0_0_1_n_n.contr.Idx) :
    (dot_S4000x7_S7x10_S4000x10_1_0_0_1_n_n.rhsIdx i q 0).val = (q ⟨0, by decide⟩).val :=
  dot_S4000x7_S7x10_S4000x10_1_0_0_1_n_n.rhsIdx_val_of_single rfl i q
theorem rhs_dense1_1 (i : S4000x10.Idx) (q : dot_S4000x7_S7x10_S4000x10_1_0_0_1_n_n.contr.Idx) :
    (dot_S4000x7_S7x10_S4000x10_1_0_0_1_n_n.rhsIdx i q 1).val = (i 1).val := by
  unfold DotDims.rhsIdx
  rw [dif_neg (show ¬(1 : Fin S7x10.rank) ∈ dot_S4000x7_S7x10_S4000x10_1_0_0_1_n_n.rhsBatch by decide), dif_pos (show (1 : Fin S7x10.rank) ∈ dot_S4000x7_S7x10_S4000x10_1_0_0_1_n_n.rhsNonContracting by decide)]
  rfl

/-- Into the zero splat, entry (r, o) of the product is the sum over the 7 shared entries of row r times column o. -/
theorem matmul_dense1 {φ₁ φ₂ : FTy} (A : FVec Ideal S4000x7 φ₁) (B : FVec Ideal S7x10 φ₂) (r : Fin 4000) (o : Fin 10) :
    matmul dot_S4000x7_S7x10_S4000x10_1_0_0_1_n_n none A B (constant (F := Ideal) S4000x10 .f32 0x00000000#32) (ix2 r o)
      = ∑ k : Fin 7, A (ix2 r k) * B (ix2 k o) := by
  simp only [matmul]
  rw [Ideal.matmul_constant_zero_apply, ← Equiv.sum_comp (contrEquiv1 dot_S4000x7_S7x10_S4000x10_1_0_0_1_n_n 7 rfl rfl).symm]
  refine Finset.sum_congr rfl fun k _ => ?_
  have hk := contrEquiv1_symm_val dot_S4000x7_S7x10_S4000x10_1_0_0_1_n_n 7 rfl rfl k
  have el : dot_S4000x7_S7x10_S4000x10_1_0_0_1_n_n.lhsIdx (ix2 r o) ((contrEquiv1 dot_S4000x7_S7x10_S4000x10_1_0_0_1_n_n 7 rfl rfl).symm k) = ix2 r k := funext fun a => Fin.ext (by
    match a with
    | ⟨0, _⟩ => exact lhs_dense1_0 _ _
    | ⟨1, _⟩ => exact (lhs_dense1_1 _ _).trans hk)
  have er : dot_S4000x7_S7x10_S4000x10_1_0_0_1_n_n.rhsIdx (ix2 r o) ((contrEquiv1 dot_S4000x7_S7x10_S4000x10_1_0_0_1_n_n 7 rfl rfl).symm k) = ix2 k o := funext fun a => Fin.ext (by
    match a with
    | ⟨0, _⟩ => exact (rhs_dense1_0 _ _).trans hk
    | ⟨1, _⟩ => exact rhs_dense1_1 _ _)
  rw [el, er]

/-! ### The product [4000, 10] · [10, 3] read at (r, o) -/

theorem lhs_res_0 (i : S4000x3.Idx) (q : dot_S4000x10_S10x3_S4000x3_1_0_0_1_n_n.contr.Idx) :
    (dot_S4000x10_S10x3_S4000x3_1_0_0_1_n_n.lhsIdx i q 0).val = (i 0).val := by
  unfold DotDims.lhsIdx
  rw [dif_neg (show ¬(0 : Fin S4000x10.rank) ∈ dot_S4000x10_S10x3_S4000x3_1_0_0_1_n_n.lhsBatch by decide), dif_pos (show (0 : Fin S4000x10.rank) ∈ dot_S4000x10_S10x3_S4000x3_1_0_0_1_n_n.lhsNonContracting by decide)]
  rfl
theorem lhs_res_1 (i : S4000x3.Idx) (q : dot_S4000x10_S10x3_S4000x3_1_0_0_1_n_n.contr.Idx) :
    (dot_S4000x10_S10x3_S4000x3_1_0_0_1_n_n.lhsIdx i q 1).val = (q ⟨0, by decide⟩).val :=
  dot_S4000x10_S10x3_S4000x3_1_0_0_1_n_n.lhsIdx_val_of_single rfl i q
theorem rhs_res_0 (i : S4000x3.Idx) (q : dot_S4000x10_S10x3_S4000x3_1_0_0_1_n_n.contr.Idx) :
    (dot_S4000x10_S10x3_S4000x3_1_0_0_1_n_n.rhsIdx i q 0).val = (q ⟨0, by decide⟩).val :=
  dot_S4000x10_S10x3_S4000x3_1_0_0_1_n_n.rhsIdx_val_of_single rfl i q
theorem rhs_res_1 (i : S4000x3.Idx) (q : dot_S4000x10_S10x3_S4000x3_1_0_0_1_n_n.contr.Idx) :
    (dot_S4000x10_S10x3_S4000x3_1_0_0_1_n_n.rhsIdx i q 1).val = (i 1).val := by
  unfold DotDims.rhsIdx
  rw [dif_neg (show ¬(1 : Fin S10x3.rank) ∈ dot_S4000x10_S10x3_S4000x3_1_0_0_1_n_n.rhsBatch by decide), dif_pos (show (1 : Fin S10x3.rank) ∈ dot_S4000x10_S10x3_S4000x3_1_0_0_1_n_n.rhsNonContracting by decide)]
  rfl

/-- Into the zero splat, entry (r, o) of the product is the sum over the 10 shared entries of row r times column o. -/
theorem matmul_res {φ₁ φ₂ : FTy} (A : FVec Ideal S4000x10 φ₁) (B : FVec Ideal S10x3 φ₂) (r : Fin 4000) (o : Fin 3) :
    matmul dot_S4000x10_S10x3_S4000x3_1_0_0_1_n_n none A B (constant (F := Ideal) S4000x3 .f32 0x00000000#32) (ix2 r o)
      = ∑ k : Fin 10, A (ix2 r k) * B (ix2 k o) := by
  simp only [matmul]
  rw [Ideal.matmul_constant_zero_apply, ← Equiv.sum_comp (contrEquiv1 dot_S4000x10_S10x3_S4000x3_1_0_0_1_n_n 10 rfl rfl).symm]
  refine Finset.sum_congr rfl fun k _ => ?_
  have hk := contrEquiv1_symm_val dot_S4000x10_S10x3_S4000x3_1_0_0_1_n_n 10 rfl rfl k
  have el : dot_S4000x10_S10x3_S4000x3_1_0_0_1_n_n.lhsIdx (ix2 r o) ((contrEquiv1 dot_S4000x10_S10x3_S4000x3_1_0_0_1_n_n 10 rfl rfl).symm k) = ix2 r k := funext fun a => Fin.ext (by
    match a with
    | ⟨0, _⟩ => exact lhs_res_0 _ _
    | ⟨1, _⟩ => exact (lhs_res_1 _ _).trans hk)
  have er : dot_S4000x10_S10x3_S4000x3_1_0_0_1_n_n.rhsIdx (ix2 r o) ((contrEquiv1 dot_S4000x10_S10x3_S4000x3_1_0_0_1_n_n 10 rfl rfl).symm k) = ix2 k o := funext fun a => Fin.ext (by
    match a with
    | ⟨0, _⟩ => exact (rhs_res_0 _ _).trans hk
    | ⟨1, _⟩ => exact rhs_res_1 _ _)
  rw [el, er]

/-- Block 2's second dense layer at row r, whatever its hidden column is called, once that column's row is known. -/
theorem outB_row (Hd : FVec Ideal S4000x1 .bf16) (hH : Hd (ix2 r (0 : Fin 1)) = hidB (wK x3 x4 x5 x6 x7 x8 x9 x10 x11 x12 x13 x14 x15 x16) (atomK x0 x1 x2 r)) (o : Fin 2) :
    addf (matmul dot_S4000x1_S1x2_S4000x2_1_0_0_1_n_n none Hd (k0_pay21 x11) (constant (F := Ideal) S4000x2 .f32 0x00000000#32))
        (broadcastTo S4000x2 (shapeCast S1x2 x12 shapeCasts_S2_S1x2) broadcasts_S1x2_S4000x2) (ix2 r o)
      = outB (wK x3 x4 x5 x6 x7 x8 x9 x10 x11 x12 x13 x14 x15 x16) (atomK x0 x1 x2 r) o := by
  refine (addf_apply _ _ _).trans ?_
  refine (congrArg₂ (· + ·) (matmul_out2 _ _ r o) (bias_row x12 _ _ r o)).trans ?_
  unfold outB
  refine congrArg₂ (· + ·) (Finset.sum_congr rfl fun k _ => ?_) rfl
  obtain rfl : k = 0 := Subsingleton.elim _ _
  exact congrArg₂ (· * ·) hH rfl

/-- The seven features at row r: three gated components, the position, the scalar output, whatever the five pieces
    are called, once their rows are known. -/
theorem featA_row (P0 P1 P2 : FVec Ideal S4000x1 .f32) (Pp : FVec Ideal S4000x3 .f32) (Ps : FVec Ideal S4000x1 .f32)
    (h0 : P0 (ix2 r (0 : Fin 1)) = vecB (wK x3 x4 x5 x6 x7 x8 x9 x10 x11 x12 x13 x14 x15 x16) (atomK x0 x1 x2 r) 0) (h1 : P1 (ix2 r (0 : Fin 1)) = vecB (wK x3 x4 x5 x6 x7 x8 x9 x10 x11 x12 x13 x14 x15 x16) (atomK x0 x1 x2 r) 1)
    (h2 : P2 (ix2 r (0 : Fin 1)) = vecB (wK x3 x4 x5 x6 x7 x8 x9 x10 x11 x12 x13 x14 x15 x16) (atomK x0 x1 x2 r) 2) (hp : ∀ c : Fin 3, Pp (ix2 r c) = (atomK x0 x1 x2 r).pos c)
    (hs : Ps (ix2 r (0 : Fin 1)) = outB (wK x3 x4 x5 x6 x7 x8 x9 x10 x11 x12 x13 x14 x15 x16) (atomK x0 x1 x2 r) 0) (k : Fin 7) :
    concatenate S4000x7 1 [⟨S4000x1, P0⟩, ⟨S4000x1, P1⟩, ⟨S4000x1, P2⟩, ⟨S4000x3, Pp⟩, ⟨S4000x1, Ps⟩]
        concatenates_S4000x1_S4000x1_S4000x1_S4000x3_S4000x1_S4000x7_d1 (ix2 r k)
      = featA (wK x3 x4 x5 x6 x7 x8 x9 x10 x11 x12 x13 x14 x15 x16) (atomK x0 x1 x2 r) k := by
  match k with
  | ⟨0, _⟩ =>
    exact (concatenate_apply_piece 1 [⟨S4000x1, P0⟩, ⟨S4000x1, P1⟩, ⟨S4000x1, P2⟩, ⟨S4000x3, Pp⟩, ⟨S4000x1, Ps⟩]
      concatenates_S4000x1_S4000x1_S4000x1_S4000x3_S4000x1_S4000x7_d1 (ix2 r _) 0 (by show (0 : ℕ) < 5; decide)
      S4000x1 P0 rfl rfl 0 rfl (ix2 r (0 : Fin 1))
      (fun b hb => match b, hb with | ⟨0, _⟩, _ => rfl | ⟨1, _⟩, hb => absurd (Fin.ext rfl) hb) rfl).trans h0
  | ⟨1, _⟩ =>
    exact (concatenate_apply_piece 1 [⟨S4000x1, P0⟩, ⟨S4000x1, P1⟩, ⟨S4000x1, P2⟩, ⟨S4000x3, Pp⟩, ⟨S4000x1, Ps⟩]
      concatenates_S4000x1_S4000x1_S4000x1_S4000x3_S4000x1_S4000x7_d1 (ix2 r _) 1 (by show (1 : ℕ) < 5; decide)
      S4000x1 P1 rfl rfl 1 rfl (ix2 r (0 : Fin 1))
      (fun b hb => match b, hb with | ⟨0, _⟩, _ => rfl | ⟨1, _⟩, hb => absurd (Fin.ext rfl) hb) rfl).trans h1
  | ⟨2, _⟩ =>
    exact (concatenate_apply_piece 1 [⟨S4000x1, P0⟩, ⟨S4000x1, P1⟩, ⟨S4000x1, P2⟩, ⟨S4000x3, Pp⟩, ⟨S4000x1, Ps⟩]
      concatenates_S4000x1_S4000x1_S4000x1_S4000x3_S4000x1_S4000x7_d1 (ix2 r _) 2 (by show (2 : ℕ) < 5; decide)
      S4000x1 P2 rfl rfl 2 rfl (ix2 r (0 : Fin 1))
      (fun b hb => match b, hb with | ⟨0, _⟩, _ => rfl | ⟨1, _⟩, hb => absurd (Fin.ext rfl) hb) rfl).trans h2
  | ⟨3, _⟩ =>
    exact (concatenate_apply_piece 1 [⟨S4000x1, P0⟩, ⟨S4000x1, P1⟩, ⟨S4000x1, P2⟩, ⟨S4000x3, Pp⟩, ⟨S4000x1, Ps⟩]
      concatenates_S4000x1_S4000x1_S4000x1_S4000x3_S4000x1_S4000x7_d1 (ix2 r _) 3 (by show (3 : ℕ) < 5; decide)
      S4000x3 Pp rfl rfl 3 rfl (ix2 r (0 : Fin 3))
      (fun b hb => match b, hb with | ⟨0, _⟩, _ => rfl | ⟨1, _⟩, hb => absurd (Fin.ext rfl) hb) rfl).trans (hp 0)
  | ⟨4, _⟩ =>
    exact (concatenate_apply_piece 1 [⟨S4000x1, P0⟩, ⟨S4000x1, P1⟩, ⟨S4000x1, P2⟩, ⟨S4000x3, Pp⟩, ⟨S4000x1, Ps⟩]
      concatenates_S4000x1_S4000x1_S4000x1_S4000x3_S4000x1_S4000x7_d1 (ix2 r _) 3 (by show (3 : ℕ) < 5; decide)
      S4000x3 Pp rfl rfl 3 rfl (ix2 r (1 : Fin 3))
      (fun b hb => match b, hb with | ⟨0, _⟩, _ => rfl | ⟨1, _⟩, hb => absurd (Fin.ext rfl) hb) rfl).trans (hp 1)
  | ⟨5, _⟩ =>
    exact (concatenate_apply_piece 1 [⟨S4000x1, P0⟩, ⟨S4000x1, P1⟩, ⟨S4000x1, P2⟩, ⟨S4000x3, Pp⟩, ⟨S4000x1, Ps⟩]
      concatenates_S4000x1_S4000x1_S4000x1_S4000x3_S4000x1_S4000x7_d1 (ix2 r _) 3 (by show (3 : ℕ) < 5; decide)
      S4000x3 Pp rfl rfl 3 rfl (ix2 r (2 : Fin 3))
      (fun b hb => match b, hb with | ⟨0, _⟩, _ => rfl | ⟨1, _⟩, hb => absurd (Fin.ext rfl) hb) rfl).trans (hp 2)
  | ⟨6, _⟩ =>
    exact (concatenate_apply_piece 1 [⟨S4000x1, P0⟩, ⟨S4000x1, P1⟩, ⟨S4000x1, P2⟩, ⟨S4000x3, Pp⟩, ⟨S4000x1, Ps⟩]
      concatenates_S4000x1_S4000x1_S4000x1_S4000x3_S4000x1_S4000x7_d1 (ix2 r _) 4 (by show (4 : ℕ) < 5; decide)
      S4000x1 Ps rfl rfl 6 rfl (ix2 r (0 : Fin 1))
      (fun b hb => match b, hb with | ⟨0, _⟩, _ => rfl | ⟨1, _⟩, hb => absurd (Fin.ext rfl) hb) rfl).trans hs

/-- The body's stored value: the atom's three outputs. -/
theorem pay1_row (j : Fin 3) :
    k0_pay1 x2 (k0_pay18 (k0_pay7 x1 x3) (k0_pay10 x0 x1 x3 x4 x5) (k0_pay11 x6) x7 x8) (k0_pay19 (k0_pay8 x1 x3) (k0_pay10 x0 x1 x3 x4 x5) (k0_pay11 x6) x7 x8) (k0_pay20 (k0_pay9 x1 x3) (k0_pay10 x0 x1 x3 x4 x5) (k0_pay11 x6) x7 x8)
        (k0_pay21 x11) x12 (k0_pay22 (k0_pay7 x1 x3) (k0_pay8 x1 x3) (k0_pay9 x1 x3) (k0_pay10 x0 x1 x3 x4 x5) (k0_pay11 x6) x7 x8 x9 x10) x13 x14 x15 x16 (ix2 r j)
      = result (wK x3 x4 x5 x6 x7 x8 x9 x10 x11 x12 x13 x14 x15 x16) (atomK x0 x1 x2 r) j := by
  unfold k0_pay1
  refine (addf_apply _ _ _).trans ?_
  refine (congrArg₂ (· + ·) (matmul_res _ _ r j) (bias_row x16 _ _ r j)).trans ?_
  unfold result
  refine congrArg₂ (· + ·) (Finset.sum_congr rfl fun k _ => ?_) rfl
  refine congrArg₂ (· * ·) ?_ rfl
  refine (narrow_apply _ _ _).trans ?_
  refine (silu_vec _ _).trans ?_
  unfold hidD
  refine congrArg silu ?_
  refine (addf_apply _ _ _).trans ?_
  refine (congrArg₂ (· + ·) (matmul_dense1 _ _ r k) (bias_row x14 _ _ r k)).trans ?_
  unfold preD
  refine congrArg₂ (· + ·) (Finset.sum_congr rfl fun m _ => ?_) rfl
  refine congrArg₂ (· * ·) ?_ rfl
  refine (narrow_apply _ _ _).trans ?_
  refine featA_row x0 x1 x2 x3 x4 x5 x6 x7 x8 x9 x10 x11 x12 x13 x14 x15 x16 r _ _ _ _ _ ?_ ?_ ?_ (fun c => rfl) ?_ m
  · refine (mulf_apply _ _ _).trans ?_
    unfold vecB
    refine congrArg₂ (· * ·) ?_ (pay18_row x0 x1 x2 x3 x4 x5 x6 x7 x8 x9 x10 x11 x12 x13 x14 x15 x16 r)
    refine (slice2_axis1_apply 1 _ _ r (0 : Fin 1) (1 : Fin 2) rfl).trans ?_
    exact outB_row x0 x1 x2 x3 x4 x5 x6 x7 x8 x9 x10 x11 x12 x13 x14 x15 x16 r _ (pay22_row x0 x1 x2 x3 x4 x5 x6 x7 x8 x9 x10 x11 x12 x13 x14 x15 x16 r) 1
  · refine (mulf_apply _ _ _).trans ?_
    unfold vecB
    refine congrArg₂ (· * ·) ?_ (pay19_row x0 x1 x2 x3 x4 x5 x6 x7 x8 x9 x10 x11 x12 x13 x14 x15 x16 r)
    refine (slice2_axis1_apply 1 _ _ r (0 : Fin 1) (1 : Fin 2) rfl).trans ?_
    exact outB_row x0 x1 x2 x3 x4 x5 x6 x7 x8 x9 x10 x11 x12 x13 x14 x15 x16 r _ (pay22_row x0 x1 x2 x3 x4 x5 x6 x7 x8 x9 x10 x11 x12 x13 x14 x15 x16 r) 1
  · refine (mulf_apply _ _ _).trans ?_
    unfold vecB
    refine congrArg₂ (· * ·) ?_ (pay20_row x0 x1 x2 x3 x4 x5 x6 x7 x8 x9 x10 x11 x12 x13 x14 x15 x16 r)
    refine (slice2_axis1_apply 1 _ _ r (0 : Fin 1) (1 : Fin 2) rfl).trans ?_
    exact outB_row x0 x1 x2 x3 x4 x5 x6 x7 x8 x9 x10 x11 x12 x13 x14 x15 x16 r _ (pay22_row x0 x1 x2 x3 x4 x5 x6 x7 x8 x9 x10 x11 x12 x13 x14 x15 x16 r) 1
  · refine (slice2_axis1_apply 0 _ _ r (0 : Fin 1) (0 : Fin 2) rfl).trans ?_
    exact outB_row x0 x1 x2 x3 x4 x5 x6 x7 x8 x9 x10 x11 x12 x13 x14 x15 x16 r _ (pay22_row x0 x1 x2 x3 x4 x5 x6 x7 x8 x9 x10 x11 x12 x13 x14 x15 x16 r) 0

end Cert.KernelIdeal.RowValue

end
-- ==== Proof.KernelArray.lean ====
/-
  From the kernel's blocks to its result array.

  The kernel runs on a grid of 50 points; point t handles atoms 4000 t … 4000 t + 3999: it fetches their rows of the
  scalar features, of the vector features (reshaped on the host to [200000, 384]: atom n's component c in columns
  128 c … 128 c + 127) and of the positions, and every weight whole, and writes back rows 4000 t … 4000 t + 3999 of a
  [200000, 3] array. Row r of the written block is the one-atom specification at the atom in row r of the fetched
  blocks, that is at atom 4000 t + r of the argument arrays; the fifty blocks tile the array, so the array ends as the
  specification's rows, and the host's closing reshape flattens it row by row.
-/
import proofs.«118726_j67070209295171_1_alg».proof.Proof.Gen.KernelIdeal.Frame
import proofs.«118726_j67070209295171_1_alg».proof.Proof.KernelBlock2
import Idealize.ShloMosaic.Lib.Pipeline.Value
import Idealize.ShloMosaic.Lib.StableHlo.Run

set_option maxRecDepth 16384

noncomputable section

open scoped BigOperators

namespace Cert.KernelIdeal.ArrayValue

open Cert.KernelIdeal Cert.KernelIdeal.Gen Cert.KernelIdeal.RowValue Cert.AtomSpec
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

/-- Row r of the block the body stores is the specification at the atom in row r of the loaded blocks. -/
theorem out_row (x0 : Vec Ideal S4000x128 .f32) (x1 : Vec Ideal S4000x384 .f32) (x2 : Vec Ideal S4000x3 .f32)
    (x3 : Vec Ideal S128x128 .f32) (x4 : Vec Ideal S192x64 .f32) (x5 : Vec Ideal S64 .f32) (x6 : Vec Ideal S64x128 .f32)
    (x7 : Vec Ideal S128 .f32) (x8 : Vec Ideal S64x2 .f32) (x9 : Vec Ideal S65x1 .f32) (x10 : Vec Ideal S1 .f32)
    (x11 : Vec Ideal S1x2 .f32) (x12 : Vec Ideal S2 .f32) (x13 : Vec Ideal S7x10 .f32) (x14 : Vec Ideal S10 .f32)
    (x15 : Vec Ideal S10x3 .f32) (x16 : Vec Ideal S3 .f32) (r : Fin 4000) (j : Fin 3) :
    out0_17 x0 x1 x2 x3 x4 x5 x6 x7 x8 x9 x10 x11 x12 x13 x14 x15 x16 (ix2 r j)
      = result (wK x3 x4 x5 x6 x7 x8 x9 x10 x11 x12 x13 x14 x15 x16) (atomK x0 x1 x2 r) j := by
  unfold out0_17
  rw [View.canon_unit_zero hz2]
  simp only [View.ld_unit_zero (S := S4000x128) hz2, View.ld_unit_zero (S := S4000x384) hz2, View.ld_unit_zero (S := S4000x3) hz2,
    View.ld_unit_zero (S := S128x128) hz2, View.ld_unit_zero (S := S192x64) hz2, View.ld_unit_zero (S := S64) hz1,
    View.ld_unit_zero (S := S64x128) hz2, View.ld_unit_zero (S := S128) hz1, View.ld_unit_zero (S := S64x2) hz2,
    View.ld_unit_zero (S := S65x1) hz2, View.ld_unit_zero (S := S1) hz1, View.ld_unit_zero (S := S1x2) hz2,
    View.ld_unit_zero (S := S2) hz1, View.ld_unit_zero (S := S7x10) hz2, View.ld_unit_zero (S := S10) hz1,
    View.ld_unit_zero (S := S10x3) hz2, View.ld_unit_zero (S := S3) hz1]
  exact pay1_row x0 x1 x2 x3 x4 x5 x6 x7 x8 x9 x10 x11 x12 x13 x14 x15 x16 r j

variable (m : (ℓ : Loc nD τ sig) → Buf (Elt Ideal) ℓ) (ρ : Dev nD → PrngReg)

/-- The vector features as the region finds them: the host's reshape of the argument to [200000, 384]. -/
theorem V_main_v0 (c : Dev nD) :
    V m c main_v0 = shapeCast S200000x384 (m ((c : Thread nD τ).loc main_arg2)) shapeCasts_S200000x3x128_S200000x384 := by
  show StableHlo.after hostOps0 (fun b => m (c, b)) (Proc.devRef .tc main_v0) = _
  after_results; rfl

/-- That reshape at (n, 128 c + i) is the argument at (n, c, i). -/
theorem vflat_apply (A2 : S200000x3x128.Idx → EReal) (n : Fin 200000) (c : Fin 3) (i : Fin 128) (hk : 128 * c.val + i.val < 384) :
    shapeCast S200000x384 A2 shapeCasts_S200000x3x128_S200000x384 (ix2 n ⟨128 * c.val + i.val, hk⟩) = A2 (ix3 n c i) := by
  refine shapeCast_apply A2 shapeCasts_S200000x3x128_S200000x384 _ _ ?_
  rw [Shape.rowMajor_val_three, Shape.rowMajor_val_two]
  show (n.val * 3 + c.val) * 128 + i.val = n.val * 384 + (128 * c.val + i.val)
  omega

/-- The printed index maps at a point: the row windows move with the point on axis 0 and stay at 0 on axis 1; every
    weight window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_17.index t (0 : Fin 2) = t.val ∧ win0_17.index t (1 : Fin 2) = 0 :=
  (by decide +kernel : ∀ t : Fin grid0.N, _)

theorem t_lt (t : Fin cfg0.N) : t.val < 50 := t.isLt

/-- Atom 4000 t + r, the atom in row r of point t's blocks. -/
abbrev atomIx (t : Fin cfg0.N) (r : Fin 4000) : Fin 200000 := ⟨4000 * t.val + r.val, by have := t_lt t; have := r.isLt; omega⟩

/-- Point t's block of the scalar features at (r, i) is the array at (4000 t + r, i). -/
theorem blk0_apply (c : Dev nD) (t : Fin cfg0.N) (r : Fin 4000) (i : Fin 128) :
    iblk m c 0 t (ix2 r i) = m ((c : Thread nD τ).loc main_arg1) (ix2 (atomIx t r) i) := by
  unfold iblk
  show V m c main_arg1 (((cfg0.win 0).blk t).view.emb (ix2 r i)) = _
  rw [V_main_arg1]
  obtain ⟨e0, e1, -⟩ := idx_facts t
  refine congrArg _ (funext fun a => Fin.ext ?_)
  match a with
  | ⟨0, _⟩ => show win0_0.index t (0 : Fin 2) * 4000 + 1 * r.val = 4000 * t.val + r.val; omega
  | ⟨1, _⟩ => show win0_0.index t (1 : Fin 2) * 128 + 1 * i.val = i.val; omega

/-- Point t's block of the reshaped vector features at (r, 128 c + i) is the argument at (4000 t + r, c, i). -/
theorem blk1_apply (c : Dev nD) (t : Fin cfg0.N) (r : Fin 4000) (c' : Fin 3) (i : Fin 128) (hk : 128 * c'.val + i.val < 384) :
    iblk m c 1 t (ix2 r ⟨128 * c'.val + i.val, hk⟩) = m ((c : Thread nD τ).loc main_arg2) (ix3 (atomIx t r) c' i) := by
  unfold iblk
  show V m c main_v0 (((cfg0.win 1).blk t).view.emb (ix2 r ⟨128 * c'.val + i.val, hk⟩)) = _
  rw [V_main_v0]
  obtain ⟨-, -, e0, e1, -⟩ := idx_facts t
  refine (congrArg _ (funext fun a => Fin.ext ?_)).trans (vflat_apply _ (atomIx t r) c' i hk)
  match a with
  | ⟨0, _⟩ => show win0_1.index t (0 : Fin 2) * 4000 + 1 * r.val = 4000 * t.val + r.val; omega
  | ⟨1, _⟩ => show win0_1.index t (1 : Fin 2) * 384 + 1 * (128 * c'.val + i.val) = 128 * c'.val + i.val; omega

/-- Point t's block of the positions at (r, k) is the array at (4000 t + r, k). -/
theorem blk2_apply (c : Dev nD) (t : Fin cfg0.N) (r : Fin 4000) (k : Fin 3) :
    iblk m c 2 t (ix2 r k) = m ((c : Thread nD τ).loc main_arg0) (ix2 (atomIx t r) k) := by
  unfold iblk
  show V m c main_arg0 (((cfg0.win 2).blk t).view.emb (ix2 r k)) = _
  rw [V_main_arg0]
  obtain ⟨-, -, -, -, e0, e1, -⟩ := idx_facts t
  refine congrArg _ (funext fun a => Fin.ext ?_)
  match a with
  | ⟨0, _⟩ => show win0_2.index t (0 : Fin 2) * 4000 + 1 * r.val = 4000 * t.val + r.val; omega
  | ⟨1, _⟩ => show win0_2.index t (1 : Fin 2) * 3 + 1 * k.val = k.val; omega

/-- Every weight window stays at block 0 on every axis. -/
theorem widx_facts : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 2) = 0 ∧ win0_13.index t (1 : Fin 2) = 0
    ∧ win0_14.index t (0 : Fin 1) = 0
    ∧ win0_15.index t (0 : Fin 2) = 0 ∧ win0_15.index t (1 : Fin 2) = 0
    ∧ win0_16.index t (0 : Fin 1) = 0 :=
  (by decide +kernel : ∀ t : Fin grid0.N, _)

/-- Window 3's block is its whole array, at every point. -/
theorem blk3_eq (c : Dev nD) (t : Fin cfg0.N) : iblk m c 3 t = m ((c : Thread nD τ).loc main_arg4) := by
  funext y
  unfold iblk
  show V m c main_arg4 (((cfg0.win 3).blk t).view.emb y) = _
  rw [V_main_arg4]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4's block is its whole array, at every point. -/
theorem blk4_eq (c : Dev nD) (t : Fin cfg0.N) : iblk m c 4 t = m ((c : Thread nD τ).loc main_arg5) := by
  funext y
  unfold iblk
  show V m c main_arg5 (((cfg0.win 4).blk t).view.emb y) = _
  rw [V_main_arg5]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_4.index t (0 : Fin 2) * 192 + 1 * (y 0).val = (y 0).val; omega
  | ⟨1, _⟩ => show win0_4.index t (1 : Fin 2) * 64 + 1 * (y 1).val = (y 1).val; omega

/-- Window 5's block is its whole array, at every point. -/
theorem blk5_eq (c : Dev nD) (t : Fin cfg0.N) : iblk m c 5 t = m ((c : Thread nD τ).loc main_arg6) := by
  funext y
  unfold iblk
  show V m c main_arg6 (((cfg0.win 5).blk t).view.emb y) = _
  rw [V_main_arg6]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_5.index t (0 : Fin 1) * 64 + 1 * (y 0).val = (y 0).val; omega

/-- Window 6's block is its whole array, at every point. -/
theorem blk6_eq (c : Dev nD) (t : Fin cfg0.N) : iblk m c 6 t = m ((c : Thread nD τ).loc main_arg7) := by
  funext y
  unfold iblk
  show V m c main_arg7 (((cfg0.win 6).blk t).view.emb y) = _
  rw [V_main_arg7]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_6.index t (0 : Fin 2) * 64 + 1 * (y 0).val = (y 0).val; omega
  | ⟨1, _⟩ => show win0_6.index t (1 : Fin 2) * 128 + 1 * (y 1).val = (y 1).val; omega

/-- Window 7's block is its whole array, at every point. -/
theorem blk7_eq (c : Dev nD) (t : Fin cfg0.N) : iblk m c 7 t = m ((c : Thread nD τ).loc main_arg8) := by
  funext y
  unfold iblk
  show V m c main_arg8 (((cfg0.win 7).blk t).view.emb y) = _
  rw [V_main_arg8]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_7.index t (0 : Fin 1) * 128 + 1 * (y 0).val = (y 0).val; omega

/-- Window 8's block is its whole array, at every point. -/
theorem blk8_eq (c : Dev nD) (t : Fin cfg0.N) : iblk m c 8 t = m ((c : Thread nD τ).loc main_arg9) := by
  funext y
  unfold iblk
  show V m c main_arg9 (((cfg0.win 8).blk t).view.emb y) = _
  rw [V_main_arg9]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_8.index t (0 : Fin 2) * 64 + 1 * (y 0).val = (y 0).val; omega
  | ⟨1, _⟩ => show win0_8.index t (1 : Fin 2) * 2 + 1 * (y 1).val = (y 1).val; omega

/-- Window 9's block is its whole array, at every point. -/
theorem blk9_eq (c : Dev nD) (t : Fin cfg0.N) : iblk m c 9 t = m ((c : Thread nD τ).loc main_arg10) := by
  funext y
  unfold iblk
  show V m c main_arg10 (((cfg0.win 9).blk t).view.emb y) = _
  rw [V_main_arg10]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_9.index t (0 : Fin 2) * 65 + 1 * (y 0).val = (y 0).val; omega
  | ⟨1, _⟩ => show win0_9.index t (1 : Fin 2) * 1 + 1 * (y 1).val = (y 1).val; omega

/-- Window 10's block is its whole array, at every point. -/
theorem blk10_eq (c : Dev nD) (t : Fin cfg0.N) : iblk m c 10 t = m ((c : Thread nD τ).loc main_arg11) := by
  funext y
  unfold iblk
  show V m c main_arg11 (((cfg0.win 10).blk t).view.emb y) = _
  rw [V_main_arg11]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_10.index t (0 : Fin 1) * 1 + 1 * (y 0).val = (y 0).val; omega

/-- Window 11's block is its whole array, at every point. -/
theorem blk11_eq (c : Dev nD) (t : Fin cfg0.N) : iblk m c 11 t = m ((c : Thread nD τ).loc main_arg12) := by
  funext y
  unfold iblk
  show V m c main_arg12 (((cfg0.win 11).blk t).view.emb y) = _
  rw [V_main_arg12]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 2 + 1 * (y 1).val = (y 1).val; omega

/-- Window 12's block is its whole array, at every point. -/
theorem blk12_eq (c : Dev nD) (t : Fin cfg0.N) : iblk m c 12 t = m ((c : Thread nD τ).loc main_arg13) := by
  funext y
  unfold iblk
  show V m c main_arg13 (((cfg0.win 12).blk t).view.emb y) = _
  rw [V_main_arg13]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_12.index t (0 : Fin 1) * 2 + 1 * (y 0).val = (y 0).val; omega

/-- Window 13's block is its whole array, at every point. -/
theorem blk13_eq (c : Dev nD) (t : Fin cfg0.N) : iblk m c 13 t = m ((c : Thread nD τ).loc main_arg14) := by
  funext y
  unfold iblk
  show V m c main_arg14 (((cfg0.win 13).blk t).view.emb y) = _
  rw [V_main_arg14]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_13.index t (0 : Fin 2) * 7 + 1 * (y 0).val = (y 0).val; omega
  | ⟨1, _⟩ => show win0_13.index t (1 : Fin 2) * 10 + 1 * (y 1).val = (y 1).val; omega

/-- Window 14's block is its whole array, at every point. -/
theorem blk14_eq (c : Dev nD) (t : Fin cfg0.N) : iblk m c 14 t = m ((c : Thread nD τ).loc main_arg15) := by
  funext y
  unfold iblk
  show V m c main_arg15 (((cfg0.win 14).blk t).view.emb y) = _
  rw [V_main_arg15]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_14.index t (0 : Fin 1) * 10 + 1 * (y 0).val = (y 0).val; omega

/-- Window 15's block is its whole array, at every point. -/
theorem blk15_eq (c : Dev nD) (t : Fin cfg0.N) : iblk m c 15 t = m ((c : Thread nD τ).loc main_arg16) := by
  funext y
  unfold iblk
  show V m c main_arg16 (((cfg0.win 15).blk t).view.emb y) = _
  rw [V_main_arg16]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_15.index t (0 : Fin 2) * 10 + 1 * (y 0).val = (y 0).val; omega
  | ⟨1, _⟩ => show win0_15.index t (1 : Fin 2) * 3 + 1 * (y 1).val = (y 1).val; omega

/-- Window 16's block is its whole array, at every point. -/
theorem blk16_eq (c : Dev nD) (t : Fin cfg0.N) : iblk m c 16 t = m ((c : Thread nD τ).loc main_arg17) := by
  funext y
  unfold iblk
  show V m c main_arg17 (((cfg0.win 16).blk t).view.emb y) = _
  rw [V_main_arg17]
  obtain ⟨w3_0, w3_1, w4_0, w4_1, w5_0, w6_0, w6_1, w7_0, w8_0, w8_1, w9_0, w9_1, w10_0, w11_0, w11_1, w12_0, w13_0, w13_1, w14_0, w15_0, w15_1, w16_0⟩ := widx_facts t
  refine congrArg _ (funext fun a => Fin.ext ?_)
  match a with
  | ⟨0, _⟩ => show win0_16.index t (0 : Fin 1) * 3 + 1 * (y 0).val = (y 0).val; omega

/-- The weights a point loads are the weight arguments. -/
theorem wK_blk (c : Dev nD) (t : Fin cfg0.N) :
    wK (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) = weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  rw [blk3_eq, blk4_eq, blk5_eq, blk6_eq, blk7_eq, blk8_eq, blk9_eq, blk10_eq, blk11_eq, blk12_eq, blk13_eq, blk14_eq, blk15_eq, blk16_eq]

/-- The atom in row r of point t's blocks is atom 4000 t + r of the arguments. -/
theorem atomK_blk (c : Dev nD) (t : Fin cfg0.N) (r : Fin 4000) :
    atomK (iblk m c 0 t) (iblk m c 1 t) (iblk m c 2 t) r
      = atomOf (m ((c : Thread nD τ).loc main_arg0)) (m ((c : Thread nD τ).loc main_arg1)) (m ((c : Thread nD τ).loc main_arg2)) (atomIx t r) := by
  unfold atomK atomOf
  simp only [blk0_apply, blk1_apply, blk2_apply]

/-- The result rows of the arguments as the kernel's core c holds them. -/
abbrev rowsOf (c : Dev nD) : S200000x3.Idx → EReal :=
  resultRows (weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) (m ((c : Thread nD τ).loc main_arg0)) (m ((c : Thread nD τ).loc main_arg1)) (m ((c : Thread nD τ).loc main_arg2))

/-- What point t writes back is its block of the specification's rows. -/
theorem flushed_eq (c : Dev nD) (t : Fin cfg0.N) :
    (dats m 0 c).flushed 17 t = ((cfg0.win 17).blk t).view.read (Elt Ideal) (rowsOf m c) := by
  show (cfg0.win 17).cut (grid0.coords t) ((dats m 0 c).after 17 t) = _
  rw [after0_17]
  funext y
  obtain ⟨r, j, rfl⟩ : ∃ (r : Fin 4000) (j : Fin 3), y = ix2 r j := ⟨y 0, y 1, eq_ix2 y⟩
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r j) = rowsOf m c (((cfg0.win 17).blk t).view.emb (ix2 r j))
  refine (out_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r j).trans ?_
  rw [wK_blk, atomK_blk]
  obtain ⟨-, -, -, -, -, -, e0, e1⟩ := idx_facts t
  have he : ((cfg0.win 17).blk t).view.emb (ix2 r j) = ix2 (atomIx t r) j := by
    funext a; apply Fin.ext
    match a with
    | ⟨0, _⟩ => show win0_17.index t (0 : Fin 2) * 4000 + 1 * r.val = 4000 * t.val + r.val; omega
    | ⟨1, _⟩ => show win0_17.index t (1 : Fin 2) * 3 + 1 * j.val = j.val; omega
  rw [he]
  rfl

/-- An index of the result array is in point t's block iff each coordinate is in the block's range on its axis. -/
theorem mem_blk (t : Fin cfg0.N) (i : S200000x3.Idx) :
    i ∈ ((cfg0.win 17).blk t).view.set ↔ ∀ a : Fin 2, win0_17.index t a * S4000x3.size a ≤ (i a).val ∧ (i a).val < win0_17.index t a * S4000x3.size a + S4000x3.size a := by
  show i ∈ ((View.whole main_v1).slice (win0_17.rect t)).set ↔ _
  rw [View.set_slice_whole, Rect.mem_set_unit]
  exact Iff.rfl

/-- The fifty blocks tile the array: row n lies in the block of point n / 4000. -/
theorem cover (i : S200000x3.Idx) : ∃ t : Fin cfg0.N, (cfg0.win 17).flush t = true ∧ i ∈ ((cfg0.win 17).blk t).view.set := by
  have hi0 : (i 0).val < 200000 := (i 0).isLt
  have hi1 : (i 1).val < 3 := (i 1).isLt
  refine ⟨⟨(i 0).val / 4000, by show (i 0).val / 4000 < 50; omega⟩, flush0_17 _, ?_⟩
  rw [mem_blk]
  obtain ⟨-, -, -, -, -, -, e0, e1⟩ := idx_facts ⟨(i 0).val / 4000, by show (i 0).val / 4000 < 50; omega⟩
  intro a
  match a with
  | ⟨0, _⟩ => show win0_17.index _ (0 : Fin 2) * 4000 ≤ (i 0).val ∧ (i 0).val < win0_17.index _ (0 : Fin 2) * 4000 + 4000; rw [e0]; show (i 0).val / 4000 * 4000 ≤ (i 0).val ∧ (i 0).val < (i 0).val / 4000 * 4000 + 4000; omega
  | ⟨1, _⟩ => show win0_17.index _ (1 : Fin 2) * 3 ≤ (i 1).val ∧ (i 1).val < win0_17.index _ (1 : Fin 2) * 3 + 3; rw [e1]; omega

/-- The result array after the run: the specification's rows. -/
theorem final17 (c : Dev nD) : (dats m 0 c).arrAt 17 cfg0.N = rowsOf m c :=
  (dats m 0 c).arrAt_eq_of_cover 17 (rowsOf m c) (fun t _ => flushed_eq m c t) (cover)

/-- The specification's flattened result of the arguments as core c holds them. -/
abbrev flatOf (c : Dev nD) : S600000.Idx → EReal :=
  resultFlat (weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) (m ((c : Thread nD τ).loc main_arg0)) (m ((c : Thread nD τ).loc main_arg1)) (m ((c : Thread nD τ).loc main_arg2))

/-- The host's closing reshape of the result array is the specification's flattened result. -/
theorem tail_eq (c : Dev nD) :
    Pipeline.afterTail₀ cfgs (dats m) 0 (V0 m) [hostOps1] c main_v2 = flatOf m c := by
  unfold Pipeline.afterTail₀
  show StableHlo.after hostOps1 _ (Proc.devRef .tc main_v2) = _
  after_results
  funext i
  show shapeCast S600000 (Pipeline.withArrays spec0 c (V0 m c) (fun w => (dats m 0 c).arrAt w cfg0.N)
    (Proc.devRef .tc (Pipeline.arrRef spec0 17))) shapeCasts_S200000x3_S600000 i = _
  rw [Pipeline.withArrays_arr spec0 launch0.win.arr_inj c _ _ 17]
  show shapeCast S600000 ((dats m 0 c).arrAt 17 cfg0.N) shapeCasts_S200000x3_S600000 i = _
  rw [final17]
  have hi : (i 0).val < 600000 := (i 0).isLt
  refine (shapeCast_apply (rowsOf m c) shapeCasts_S200000x3_S600000 i
    (ix2 (⟨(i 0).val / 3, by omega⟩ : Fin 200000) (⟨(i 0).val % 3, Nat.mod_lt _ (by decide)⟩ : Fin 3)) ?_).trans ?_
  · rw [Shape.rowMajor_val_two, Shape.rowMajor_val_one]
    show (i 0).val / 3 * 3 + (i 0).val % 3 = (i 0).val
    omega
  · rfl

set_option maxHeartbeats 4000000 in
/-- The kernel's run re-posted: the result buffer at the specification's flattened result of the arguments, the
    arguments unchanged. -/
theorem run : θ_run defs (onTc (τ := τ) (main (F := Ideal))) ⟨m, fun _ => 0, ρ⟩ (fun r => ∀ c : Dev nD,
      r.2.mem ((c.tc : Thread nD τ).loc main_v2) = flatOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨((h c).2 main_v2 (Pipeline.mem_restRefs_of main_v2 (by decide) (by decide))).trans (tail_eq m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).1 11).trans (((dats m 0 c).arrAt_in 11 rfl _).trans ((A_eq m c 11).trans (V_main_arg12 m c))),
      ((h c).1 12).trans (((dats m 0 c).arrAt_in 12 rfl _).trans ((A_eq m c 12).trans (V_main_arg13 m c))),
      ((h c).1 13).trans (((dats m 0 c).arrAt_in 13 rfl _).trans ((A_eq m c 13).trans (V_main_arg14 m c))),
      ((h c).1 14).trans (((dats m 0 c).arrAt_in 14 rfl _).trans ((A_eq m c 14).trans (V_main_arg15 m c))),
      ((h c).1 15).trans (((dats m 0 c).arrAt_in 15 rfl _).trans ((A_eq m c 15).trans (V_main_arg16 m c))),
      ((h c).1 16).trans (((dats m 0 c).arrAt_in 16 rfl _).trans ((A_eq m c 16).trans (V_main_arg17 m c)))⟩)
    (run_main m ρ)

end Cert.KernelIdeal.ArrayValue

end
-- ==== Proof.RefBlock1.lean ====
/-
  Block 1 of the reference, read at one atom.

  The reference computes on whole arrays: x1 the scalar features [200000, 128], x2 the vector features
  [200000, 3, 128], x0 the positions; x4 … x17 the weights. Every operation acts atom by atom (the contractions run over
  feature axes only), so each intermediate array read at atom n is the corresponding stage of the one-atom
  specification at that atom. The host spells x · σ(x) as x · (1 / (1 + e⁻ˣ)) and the norm as the square root of a
  sum over the component axis from zero.
-/
import proofs.«118726_j67070209295171_1_alg».proof.Proof.RefRead
import proofs.«118726_j67070209295171_1_alg».proof.Proof.AtomSpec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReferenceIdeal.RowValue

open Cert.ReferenceIdeal Cert.ReferenceIdeal.StageRead Cert.AtomSpec Idealize.ShloMosaic Idealize.ShloMosaic.ValueIdx

variable (x0 : (⟨S200000x3, .f32⟩ : BufTy).Contents (Elt Ideal)) (x1 : (⟨S200000x128, .f32⟩ : BufTy).Contents (Elt Ideal))
  (x2 : (⟨S200000x3x128, .f32⟩ : BufTy).Contents (Elt Ideal)) (x4 : (⟨S128x128, .f32⟩ : BufTy).Contents (Elt Ideal))
  (x5 : (⟨S192x64, .f32⟩ : BufTy).Contents (Elt Ideal)) (x6 : (⟨S64, .f32⟩ : BufTy).Contents (Elt Ideal))
  (x7 : (⟨S64x128, .f32⟩ : BufTy).Contents (Elt Ideal)) (x8 : (⟨S128, .f32⟩ : BufTy).Contents (Elt Ideal))
  (x9 : (⟨S64x2, .f32⟩ : BufTy).Contents (Elt Ideal)) (x10 : (⟨S65x1, .f32⟩ : BufTy).Contents (Elt Ideal))
  (x11 : (⟨S1, .f32⟩ : BufTy).Contents (Elt Ideal)) (x12 : (⟨S1x2, .f32⟩ : BufTy).Contents (Elt Ideal))
  (x13 : (⟨S2, .f32⟩ : BufTy).Contents (Elt Ideal)) (x14 : (⟨S7x10, .f32⟩ : BufTy).Contents (Elt Ideal))
  (x15 : (⟨S10, .f32⟩ : BufTy).Contents (Elt Ideal)) (x16 : (⟨S10x3, .f32⟩ : BufTy).Contents (Elt Ideal))
  (x17 : (⟨S3, .f32⟩ : BufTy).Contents (Elt Ideal)) (n : Fin 200000)

/-- The weight arrays as the specification's parameters. -/
abbrev wR : Weights := weightsOf x4 x5 x6 x7 x8 x9 x10 x11 x12 x13 x14 x15 x16 x17

/-- The mix of component c. -/
theorem v0_row (c : Fin 3) (o : Fin 128) :
    val_main_v0 x2 x4 (ix3 n c o) = mixA (wR x4 x5 x6 x7 x8 x9 x10 x11 x12 x13 x14 x15 x16 x17) (atomOf x0 x1 x2 n) c o := by
  refine (val_main_v0_apply x2 x4 _).trans ?_
  unfold mixA
  refine Finset.sum_congr rfl fun k _ => ?_
  have hl : lidx_main_v0 (ix3 n c o) k = ix3 n c k :=
    funext fun a => Fin.ext (by match a with | ⟨0, _⟩ => rfl | ⟨1, _⟩ => rfl | ⟨2, _⟩ => rfl)
  have hr : ridx_main_v0 (ix3 n c o) k = ix2 k o :=
    funext fun a => Fin.ext (by match a with | ⟨0, _⟩ => rfl | ⟨1, _⟩ => rfl)
  rw [hl, hr]
  rfl

/-- The first half of the mix: the slice [0:64] of the last axis. -/
theorem b1_lo_row (c : Fin 3) (j : Fin 64) :
    val_main_v1 x2 x4 (ix3 n c j) = mixA (wR x4 x5 x6 x7 x8 x9 x10 x11 x12 x13 x14 x15 x16 x17) (atomOf x0 x1 x2 n) c (lo j) := by
  have h : idx_main_v1 (ix3 n c j) = ix3 n c (lo j) :=
    funext fun a => Fin.ext (by match a with | ⟨0, _⟩ => rfl | ⟨1, _⟩ => rfl | ⟨2, _⟩ => rfl)
  rw [val_main_v1_apply, h, v0_row]

/-- The second half of the mix: the slice [64:128] of the last axis. -/
theorem b1_hi_row (c : Fin 3) (j : Fin 64) :
    val_main_v2 x2 x4 (ix3 n c j) = mixA (wR x4 x5 x6 x7 x8 x9 x10 x11 x12 x13 x14 x15 x16 x17) (atomOf x0 x1 x2 n) c (hi j) := by
  have h : idx_main_v2 (ix3 n c j) = ix3 n c (hi j) :=
    funext fun a => Fin.ext (by match a with | ⟨0, _⟩ => rfl | ⟨1, _⟩ => rfl | ⟨2, _⟩ => rfl)
  rw [val_main_v2_apply, h, v0_row]

/-- The square under the norm, at component c of entry j: the reduce's operand read at (n, c, j). -/
theorem b1_sq_row (j : Fin 64) (c : Fin 3) :
    val_main_call0_v0 x2 x4 (idx_main_call0_v1 (ix2 n j) c)
      = mixA (wR x4 x5 x6 x7 x8 x9 x10 x11 x12 x13 x14 x15 x16 x17) (atomOf x0 x1 x2 n) c (lo j)
        * mixA (wR x4 x5 x6 x7 x8 x9 x10 x11 x12 x13 x14 x15 x16 x17) (atomOf x0 x1 x2 n) c (lo j) := by
  have h : idx_main_call0_v1 (ix2 n j) c = ix3 n c j :=
    funext fun a => Fin.ext (by match a with | ⟨0, _⟩ => rfl | ⟨1, _⟩ => rfl | ⟨2, _⟩ => rfl)
  rw [h, val_main_call0_v0_apply, b1_lo_row]
  rfl

/-- The norm over the components of the first half of the mix. -/
theorem v3_row (j : Fin 64) :
    val_main_v3 x2 x4 (ix2 n j) = normA (wR x4 x5 x6 x7 x8 x9 x10 x11 x12 x13 x14 x15 x16 x17) (atomOf x0 x1 x2 n) j := by
  rw [val_main_v3_apply, val_main_call0_v1_apply, val_main_call0_cst_apply, Fin.sum_univ_three,
    b1_sq_row, b1_sq_row, b1_sq_row]
  simp only [Ideal.ofBits_def, Ideal.ofBits_zero_f32, zero_add, Ideal.hostUnary_sqrt_def]
  rfl

/-- The scalars joined with the norms. -/
theorem v4_row (k : Fin 192) :
    val_main_v4 x1 x2 x4 (ix2 n k) = catA (wR x4 x5 x6 x7 x8 x9 x10 x11 x12 x13 x14 x15 x16 x17) (atomOf x0 x1 x2 n) k := by
  unfold val_main_v4 catA
  by_cases h : k.val < 128
  · rw [dif_pos h]
    refine (concatenate_pair_apply_left (1 : Fin S200000x192.rank) x1 (val_main_v3 (F := Ideal) x2 x4)
      _ (ix2 n k) rfl (ix2 n ⟨k.val, h⟩) ?_).trans ?_
    · intro b
      match b with
      | ⟨0, _⟩ => rfl
      | ⟨1, _⟩ => rfl
    · rfl
  · rw [dif_neg h]
    refine (concatenate_pair_apply_right (1 : Fin S200000x192.rank) x1 (val_main_v3 (F := Ideal) x2 x4)
      _ (ix2 n k) rfl rfl (ix2 n ⟨k.val - 128, by omega⟩) ?_ ?_).trans ?_
    · intro b hb
      match b with
      | ⟨0, _⟩ => rfl
      | ⟨1, _⟩ => exact absurd rfl hb
    · show (k.val - 128) + 128 = k.val
      omega
    · exact v3_row x0 x1 x2 x4 x5 x6 x7 x8 x9 x10 x11 x12 x13 x14 x15 x16 x17 n _

/-- The first dense layer of block 1 before its nonlinearity: the contraction with the weights plus the bias row. -/
theorem b1_pre_row (j : Fin 64) :
    val_main_v8 x1 x2 x4 x5 x6 (ix2 n j) = preA (wR x4 x5 x6 x7 x8 x9 x10 x11 x12 x13 x14 x15 x16 x17) (atomOf x0 x1 x2 n) j := by
  rw [val_main_v8_apply, val_main_v5_apply, val_main_v7_apply, val_main_v6_apply]
  unfold preA
  have hb : idx_main_v6 (idx_main_v7 (ix2 n j)) = ix1 j :=
    funext fun a => Fin.ext (by match a with | ⟨0, _⟩ => rfl)
  rw [hb]
  refine congrArg (· + x6 (ix1 j)) (Finset.sum_congr rfl fun k _ => ?_)
  have hl : lidx_main_v5 (ix2 n j) k = ix2 n k :=
    funext fun a => Fin.ext (by match a with | ⟨0, _⟩ => rfl | ⟨1, _⟩ => rfl)
  have hr : ridx_main_v5 (ix2 n j) k = ix2 k j :=
    funext fun a => Fin.ext (by match a with | ⟨0, _⟩ => rfl | ⟨1, _⟩ => rfl)
  rw [hl, hr, v4_row x0]
  rfl

/-- The hidden layer of block 1. -/
theorem v9_row (j : Fin 64) :
    val_main_v9 x1 x2 x4 x5 x6 (ix2 n j) = hidA (wR x4 x5 x6 x7 x8 x9 x10 x11 x12 x13 x14 x15 x16 x17) (atomOf x0 x1 x2 n) j := by
  rw [val_main_v9_apply, val_main_call1_v5_apply, val_main_call1_v4_apply, val_main_call1_cst_0_apply,
    val_main_call1_v3_apply, val_main_call1_v2_apply, val_main_call1_cst_apply, val_main_call1_v1_apply,
    val_main_call1_v0_apply, b1_pre_row]
  simp only [Ideal.mulf_def, Ideal.hostDivf_def, Ideal.addf_def, Ideal.hostUnary_exp_def, Ideal.hostNegf_def,
    Ideal.negf_def, Ideal.ofBits_def]
  exact silu_host _

/-- The second dense layer of block 1. -/
theorem v13_row (o : Fin 128) :
    val_main_v13 x1 x2 x4 x5 x6 x7 x8 (ix2 n o) = outA (wR x4 x5 x6 x7 x8 x9 x10 x11 x12 x13 x14 x15 x16 x17) (atomOf x0 x1 x2 n) o := by
  rw [val_main_v13_apply, val_main_v10_apply, val_main_v12_apply, val_main_v11_apply]
  unfold outA
  have hb : idx_main_v11 (idx_main_v12 (ix2 n o)) = ix1 o :=
    funext fun a => Fin.ext (by match a with | ⟨0, _⟩ => rfl)
  rw [hb]
  refine congrArg (· + x8 (ix1 o)) (Finset.sum_congr rfl fun k _ => ?_)
  have hl : lidx_main_v10 (ix2 n o) k = ix2 n k :=
    funext fun a => Fin.ext (by match a with | ⟨0, _⟩ => rfl | ⟨1, _⟩ => rfl)
  have hr : ridx_main_v10 (ix2 n o) k = ix2 k o :=
    funext fun a => Fin.ext (by match a with | ⟨0, _⟩ => rfl | ⟨1, _⟩ => rfl)
  rw [hl, hr, v9_row x0]
  rfl

/-- Block 1's vector output. -/
theorem v18_row (c : Fin 3) (j : Fin 64) :
    val_main_v18 x1 x2 x4 x5 x6 x7 x8 (ix3 n c j) = vecA (wR x4 x5 x6 x7 x8 x9 x10 x11 x12 x13 x14 x15 x16 x17) (atomOf x0 x1 x2 n) c j := by
  have hg : idx_main_v15 (idx_main_v16 (idx_main_v17 (ix3 n c j))) = ix2 n (hi j) :=
    funext fun a => Fin.ext (by match a with | ⟨0, _⟩ => rfl | ⟨1, _⟩ => rfl)
  rw [val_main_v18_apply, val_main_v17_apply, val_main_v16_apply, val_main_v15_apply, hg, v13_row x0,
    b1_hi_row x0]
  rfl

/-- Block 1's scalar output. -/
theorem v19_row (j : Fin 64) :
    val_main_v19 x1 x2 x4 x5 x6 x7 x8 (ix2 n j) = sA (wR x4 x5 x6 x7 x8 x9 x10 x11 x12 x13 x14 x15 x16 x17) (atomOf x0 x1 x2 n) j := by
  have hs : idx_main_v14 (ix2 n j) = ix2 n (lo j) :=
    funext fun a => Fin.ext (by match a with | ⟨0, _⟩ => rfl | ⟨1, _⟩ => rfl)
  rw [val_main_v19_apply, val_main_call2_v5_apply, val_main_call2_v4_apply, val_main_call2_cst_0_apply,
    val_main_call2_v3_apply, val_main_call2_v2_apply, val_main_call2_cst_apply, val_main_call2_v1_apply,
    val_main_call2_v0_apply, val_main_v14_apply, hs, v13_row x0]
  simp only [Ideal.mulf_def, Ideal.hostDivf_def, Ideal.addf_def, Ideal.hostUnary_exp_def, Ideal.hostNegf_def,
    Ideal.negf_def, Ideal.ofBits_def]
  exact silu_host _

end Cert.ReferenceIdeal.RowValue

end
-- ==== Proof.RefBlock2.lean ====
/-
  Block 2 of the reference and the dense network after it, read at one atom, and the flattened result.

  Block 2's widths are 64 → 2 for the mix and 65 → 1 → 2 for the dense layers; the host keeps the single norm, hidden
  unit and gate as arrays with a last axis of extent one. The seven features are the three gated components (an
  array [200000, 3, 1] reshaped to [200000, 3]), the position and block 2's scalar output. The result [200000, 3] is
  flattened row by row: entry 3 n + j is output j of atom n.
-/
import proofs.«118726_j67070209295171_1_alg».proof.Proof.RefBlock1

noncomputable section

open scoped BigOperators

namespace Cert.ReferenceIdeal.RowValue

open Cert.ReferenceIdeal Cert.ReferenceIdeal.StageRead Cert.AtomSpec Idealize.ShloMosaic Idealize.ShloMosaic.ValueIdx

variable (x0 : (⟨S200000x3, .f32⟩ : BufTy).Contents (Elt Ideal)) (x1 : (⟨S200000x128, .f32⟩ : BufTy).Contents (Elt Ideal))
  (x2 : (⟨S200000x3x128, .f32⟩ : BufTy).Contents (Elt Ideal)) (x4 : (⟨S128x128, .f32⟩ : BufTy).Contents (Elt Ideal))
  (x5 : (⟨S192x64, .f32⟩ : BufTy).Contents (Elt Ideal)) (x6 : (⟨S64, .f32⟩ : BufTy).Contents (Elt Ideal))
  (x7 : (⟨S64x128, .f32⟩ : BufTy).Contents (Elt Ideal)) (x8 : (⟨S128, .f32⟩ : BufTy).Contents (Elt Ideal))
  (x9 : (⟨S64x2, .f32⟩ : BufTy).Contents (Elt Ideal)) (x10 : (⟨S65x1, .f32⟩ : BufTy).Contents (Elt Ideal))
  (x11 : (⟨S1, .f32⟩ : BufTy).Contents (Elt Ideal)) (x12 : (⟨S1x2, .f32⟩ : BufTy).Contents (Elt Ideal))
  (x13 : (⟨S2, .f32⟩ : BufTy).Contents (Elt Ideal)) (x14 : (⟨S7x10, .f32⟩ : BufTy).Contents (Elt Ideal))
  (x15 : (⟨S10, .f32⟩ : BufTy).Contents (Elt Ideal)) (x16 : (⟨S10x3, .f32⟩ : BufTy).Contents (Elt Ideal))
  (x17 : (⟨S3, .f32⟩ : BufTy).Contents (Elt Ideal)) (n : Fin 200000)

/-- The second mix of component c. -/
theorem v20_row (c : Fin 3) (o : Fin 2) :
    val_main_v20 x1 x2 x4 x5 x6 x7 x8 x9 (ix3 n c o) = mixB (wR x4 x5 x6 x7 x8 x9 x10 x11 x12 x13 x14 x15 x16 x17) (atomOf x0 x1 x2 n) c o := by
  rw [val_main_v20_apply]
  unfold mixB
  refine Finset.sum_congr rfl fun k _ => ?_
  have hl : lidx_main_v20 (ix3 n c o) k = ix3 n c k :=
    funext fun a => Fin.ext (by match a with | ⟨0, _⟩ => rfl | ⟨1, _⟩ => rfl | ⟨2, _⟩ => rfl)
  have hr : ridx_main_v20 (ix3 n c o) k = ix2 k o :=
    funext fun a => Fin.ext (by match a with | ⟨0, _⟩ => rfl | ⟨1, _⟩ => rfl)
  rw [hl, hr, v18_row x0 x1 x2 x4 x5 x6 x7 x8 x9 x10 x11 x12 x13 x14 x15 x16 x17 n c k]
  rfl

/-- The first entry of the second mix, read through the slice and the reduction's index map. -/
theorem v21_at (c : Fin 3) :
    val_main_v21 x1 x2 x4 x5 x6 x7 x8 x9 (idx_main_call3_v1 (ix2 n (0 : Fin 1)) c) = mixB (wR x4 x5 x6 x7 x8 x9 x10 x11 x12 x13 x14 x15 x16 x17) (atomOf x0 x1 x2 n) c 0 := by
  rw [val_main_v21_apply]
  have h : idx_main_v21 (idx_main_call3_v1 (ix2 n (0 : Fin 1)) c) = ix3 n c (0 : Fin 2) :=
    funext fun a => Fin.ext (by match a with | ⟨0, _⟩ => rfl | ⟨1, _⟩ => rfl | ⟨2, _⟩ => rfl)
  rw [h]
  exact v20_row x0 x1 x2 x4 x5 x6 x7 x8 x9 x10 x11 x12 x13 x14 x15 x16 x17 n c 0

/-- The norm over the components of the first entry of the second mix. -/
theorem v23_row :
    val_main_v23 x1 x2 x4 x5 x6 x7 x8 x9 (ix2 n (0 : Fin 1)) = normB (wR x4 x5 x6 x7 x8 x9 x10 x11 x12 x13 x14 x15 x16 x17) (atomOf x0 x1 x2 n) := by
  rw [val_main_v23_apply, val_main_call3_v1_apply, val_main_call3_cst_apply, Fin.sum_univ_three]
  simp only [val_main_call3_v0_apply]
  rw [v21_at x0 x1 x2 x4 x5 x6 x7 x8 x9 x10 x11 x12 x13 x14 x15 x16 x17 n 0, v21_at x0 x1 x2 x4 x5 x6 x7 x8 x9 x10 x11 x12 x13 x14 x15 x16 x17 n 1, v21_at x0 x1 x2 x4 x5 x6 x7 x8 x9 x10 x11 x12 x13 x14 x15 x16 x17 n 2]
  simp only [Ideal.hostUnary_sqrt_def, Ideal.ofBits_def, Ideal.mulf_def, Ideal.ofBits_zero_f32, zero_add]
  rfl

/-- Block 1's scalar output joined with that norm. -/
theorem v24_row (k : Fin 65) :
    val_main_v24 x1 x2 x4 x5 x6 x7 x8 x9 (ix2 n k) = catB (wR x4 x5 x6 x7 x8 x9 x10 x11 x12 x13 x14 x15 x16 x17) (atomOf x0 x1 x2 n) k := by
  unfold val_main_v24 catB
  by_cases h : k.val < 64
  · rw [dif_pos h]
    refine (concatenate_pair_apply_left (s₁ := S200000x64) (s₂ := S200000x1) _ _ _ _ (ix2 n k) rfl (ix2 n (⟨k.val, h⟩ : Fin 64)) ?_).trans ?_
    · intro b
      match b with
      | ⟨0, _⟩ => rfl
      | ⟨1, _⟩ => rfl
    · exact v19_row x0 x1 x2 x4 x5 x6 x7 x8 x9 x10 x11 x12 x13 x14 x15 x16 x17 n ⟨k.val, h⟩
  · rw [dif_neg h]
    refine (concatenate_pair_apply_right (s₁ := S200000x64) (s₂ := S200000x1) _ _ _ _ (ix2 n k) rfl rfl (ix2 n (0 : Fin 1)) ?_ ?_).trans ?_
    · intro b hb
      match b, hb with
      | ⟨0, _⟩, _ => rfl
      | ⟨1, _⟩, hb => exact absurd rfl hb
    · have := k.isLt
      show 0 + 64 = k.val
      omega
    · exact v23_row x0 x1 x2 x4 x5 x6 x7 x8 x9 x10 x11 x12 x13 x14 x15 x16 x17 n

/-- Block 2's first dense layer before its nonlinearity. -/
theorem v28_at :
    val_main_v28 x1 x2 x4 x5 x6 x7 x8 x9 x10 x11 (ix2 n (0 : Fin 1)) = preB (wR x4 x5 x6 x7 x8 x9 x10 x11 x12 x13 x14 x15 x16 x17) (atomOf x0 x1 x2 n) := by
  rw [val_main_v28_apply, val_main_v25_apply, val_main_v27_apply, val_main_v26_apply]
  unfold preB
  simp only [Ideal.addf_def]
  refine congrArg₂ (· + ·) (Finset.sum_congr rfl fun k _ => ?_) ?_
  · have hl : lidx_main_v25 (ix2 n (0 : Fin 1)) k = ix2 n k :=
      funext fun a => Fin.ext (by match a with | ⟨0, _⟩ => rfl | ⟨1, _⟩ => rfl)
    have hr : ridx_main_v25 (ix2 n (0 : Fin 1)) k = ix2 k (0 : Fin 1) :=
      funext fun a => Fin.ext (by match a with | ⟨0, _⟩ => rfl | ⟨1, _⟩ => rfl)
    rw [hl, hr, v24_row x0 x1 x2 x4 x5 x6 x7 x8 x9 x10 x11 x12 x13 x14 x15 x16 x17 n k]
    rfl
  · exact congrArg x11 (funext fun a => Fin.ext (by match a with | ⟨0, _⟩ => rfl))

/-- Block 2's hidden unit. -/
theorem v29_row :
    val_main_v29 x1 x2 x4 x5 x6 x7 x8 x9 x10 x11 (ix2 n (0 : Fin 1)) = hidB (wR x4 x5 x6 x7 x8 x9 x10 x11 x12 x13 x14 x15 x16 x17) (atomOf x0 x1 x2 n) := by
  rw [val_main_v29_apply, val_main_call4_v5_apply, val_main_call4_v4_apply, val_main_call4_cst_0_apply,
    val_main_call4_v3_apply, val_main_call4_v2_apply, val_main_call4_cst_apply, val_main_call4_v1_apply,
    val_main_call4_v0_apply, v28_at x0 x1 x2 x4 x5 x6 x7 x8 x9 x10 x11 x12 x13 x14 x15 x16 x17 n]
  simp only [Ideal.mulf_def, Ideal.hostDivf_def, Ideal.ofBits_def, Ideal.addf_def, Ideal.hostUnary_exp_def,
    Ideal.hostNegf_def, Ideal.negf_def]
  exact silu_host _

/-- Block 2's second dense layer. -/
theorem v33_row (o : Fin 2) :
    val_main_v33 x1 x2 x4 x5 x6 x7 x8 x9 x10 x11 x12 x13 (ix2 n o) = outB (wR x4 x5 x6 x7 x8 x9 x10 x11 x12 x13 x14 x15 x16 x17) (atomOf x0 x1 x2 n) o := by
  rw [val_main_v33_apply, val_main_v30_apply, val_main_v32_apply, val_main_v31_apply]
  unfold outB
  simp only [Ideal.addf_def]
  refine congrArg₂ (· + ·) (Finset.sum_congr rfl fun k _ => ?_) ?_
  · have hl : lidx_main_v30 (ix2 n o) k = ix2 n (0 : Fin 1) :=
      funext fun a => Fin.ext (by
        match a with
        | ⟨0, _⟩ => rfl
        | ⟨1, _⟩ => exact Nat.lt_one_iff.mp k.isLt)
    have hr : ridx_main_v30 (ix2 n o) k = ix2 k o :=
      funext fun a => Fin.ext (by match a with | ⟨0, _⟩ => rfl | ⟨1, _⟩ => rfl)
    rw [hl, hr, v29_row x0 x1 x2 x4 x5 x6 x7 x8 x9 x10 x11 x12 x13 x14 x15 x16 x17 n]
    rfl
  · exact congrArg x13 (funext fun a => Fin.ext (by match a with | ⟨0, _⟩ => rfl))

/-- Block 2's vector output, one number per component. -/
theorem v39_row (c : Fin 3) :
    val_main_v39 x1 x2 x4 x5 x6 x7 x8 x9 x10 x11 x12 x13 (ix2 n c) = vecB (wR x4 x5 x6 x7 x8 x9 x10 x11 x12 x13 x14 x15 x16 x17) (atomOf x0 x1 x2 n) c := by
  rw [val_main_v39_apply, val_main_v38_apply, val_main_v37_apply, val_main_v36_apply, val_main_v35_apply,
    val_main_v22_apply]
  have hc := c.isLt
  have h1 : idx_main_v35 (idx_main_v36 (idx_main_v37 (idx_main_v39 (ix2 n c)))) = ix2 n (1 : Fin 2) :=
    funext fun a => Fin.ext (by
      match a with
      | ⟨0, _⟩ => show (n.val * 3 + c.val) / 3 = n.val; omega
      | ⟨1, _⟩ => rfl)
  have h2 : idx_main_v22 (idx_main_v39 (ix2 n c)) = ix3 n c (1 : Fin 2) :=
    funext fun a => Fin.ext (by
      match a with
      | ⟨0, _⟩ => show (n.val * 3 + c.val) / 3 = n.val; omega
      | ⟨1, _⟩ => show (n.val * 3 + c.val) / 1 % 3 = c.val; omega
      | ⟨2, _⟩ => rfl)
  rw [h1, h2, v33_row x0 x1 x2 x4 x5 x6 x7 x8 x9 x10 x11 x12 x13 x14 x15 x16 x17 n 1, v20_row x0 x1 x2 x4 x5 x6 x7 x8 x9 x10 x11 x12 x13 x14 x15 x16 x17 n c 1]
  rfl

/-- The seven features. -/
theorem v40_row (k : Fin 7) :
    val_main_v40 x0 x1 x2 x4 x5 x6 x7 x8 x9 x10 x11 x12 x13 (ix2 n k) = featA (wR x4 x5 x6 x7 x8 x9 x10 x11 x12 x13 x14 x15 x16 x17) (atomOf x0 x1 x2 n) k := by
  unfold val_main_v40 featA
  have hk := k.isLt
  by_cases h : k.val < 3
  · rw [dif_pos h]
    refine (concatenate_apply_piece _ _ _ (ix2 n k) 0 (by show (0 : Nat) < 3; decide) S200000x3 _ rfl rfl 0 rfl
      (ix2 n (⟨k.val, h⟩ : Fin 3)) ?_ ?_).trans ?_
    · intro b hb
      match b, hb with
      | ⟨0, _⟩, _ => rfl
      | ⟨1, _⟩, hb => exact absurd rfl hb
    · show 0 + k.val = k.val
      omega
    · exact v39_row x0 x1 x2 x4 x5 x6 x7 x8 x9 x10 x11 x12 x13 x14 x15 x16 x17 n ⟨k.val, h⟩
  · rw [dif_neg h]
    by_cases h' : k.val < 6
    · rw [dif_pos h']
      refine (concatenate_apply_piece _ _ _ (ix2 n k) 1 (by show (1 : Nat) < 3; decide) S200000x3 _ rfl rfl 3 rfl
        (ix2 n (⟨k.val - 3, by omega⟩ : Fin 3)) ?_ ?_).trans ?_
      · intro b hb
        match b, hb with
        | ⟨0, _⟩, _ => rfl
        | ⟨1, _⟩, hb => exact absurd rfl hb
      · show 3 + (k.val - 3) = k.val
        omega
      · rfl
    · rw [dif_neg h']
      refine (concatenate_apply_piece _ _ _ (ix2 n k) 2 (by show (2 : Nat) < 3; decide) S200000x1 _ rfl rfl 6 rfl
        (ix2 n (0 : Fin 1)) ?_ ?_).trans ?_
      · intro b hb
        match b, hb with
        | ⟨0, _⟩, _ => rfl
        | ⟨1, _⟩, hb => exact absurd rfl hb
      · show 6 + 0 = k.val
        omega
      · rw [val_main_v34_apply]
        have e : idx_main_v34 (ix2 n (0 : Fin 1)) = ix2 n (0 : Fin 2) :=
          funext fun a => Fin.ext (by match a with | ⟨0, _⟩ => rfl | ⟨1, _⟩ => rfl)
        rw [e]
        exact v33_row x0 x1 x2 x4 x5 x6 x7 x8 x9 x10 x11 x12 x13 x14 x15 x16 x17 n 0

/-- The dense network's first layer before its nonlinearity. -/
theorem v44_at (j : Fin 10) :
    val_main_v44 x0 x1 x2 x4 x5 x6 x7 x8 x9 x10 x11 x12 x13 x14 x15 (ix2 n j) = preD (wR x4 x5 x6 x7 x8 x9 x10 x11 x12 x13 x14 x15 x16 x17) (atomOf x0 x1 x2 n) j := by
  rw [val_main_v44_apply, val_main_v41_apply, val_main_v43_apply, val_main_v42_apply]
  unfold preD
  simp only [Ideal.addf_def]
  refine congrArg₂ (· + ·) (Finset.sum_congr rfl fun k _ => ?_) ?_
  · have hl : lidx_main_v41 (ix2 n j) k = ix2 n k :=
      funext fun a => Fin.ext (by match a with | ⟨0, _⟩ => rfl | ⟨1, _⟩ => rfl)
    have hr : ridx_main_v41 (ix2 n j) k = ix2 k j :=
      funext fun a => Fin.ext (by match a with | ⟨0, _⟩ => rfl | ⟨1, _⟩ => rfl)
    rw [hl, hr, v40_row x0 x1 x2 x4 x5 x6 x7 x8 x9 x10 x11 x12 x13 x14 x15 x16 x17 n k]
    rfl
  · exact congrArg x15 (funext fun a => Fin.ext (by match a with | ⟨0, _⟩ => rfl))

/-- The dense network's hidden layer. -/
theorem v45_row (k : Fin 10) :
    val_main_v45 x0 x1 x2 x4 x5 x6 x7 x8 x9 x10 x11 x12 x13 x14 x15 (ix2 n k) = hidD (wR x4 x5 x6 x7 x8 x9 x10 x11 x12 x13 x14 x15 x16 x17) (atomOf x0 x1 x2 n) k := by
  rw [val_main_v45_apply, val_main_call5_v5_apply, val_main_call5_v4_apply, val_main_call5_cst_0_apply,
    val_main_call5_v3_apply, val_main_call5_v2_apply, val_main_call5_cst_apply, val_main_call5_v1_apply,
    val_main_call5_v0_apply, v44_at x0 x1 x2 x4 x5 x6 x7 x8 x9 x10 x11 x12 x13 x14 x15 x16 x17 n k]
  simp only [Ideal.mulf_def, Ideal.hostDivf_def, Ideal.ofBits_def, Ideal.addf_def, Ideal.hostUnary_exp_def,
    Ideal.hostNegf_def, Ideal.negf_def]
  exact silu_host _

/-- The atom's three outputs. -/
theorem v49_row (j : Fin 3) :
    val_main_v49 x0 x1 x2 x4 x5 x6 x7 x8 x9 x10 x11 x12 x13 x14 x15 x16 x17 (ix2 n j) = result (wR x4 x5 x6 x7 x8 x9 x10 x11 x12 x13 x14 x15 x16 x17) (atomOf x0 x1 x2 n) j := by
  rw [val_main_v49_apply, val_main_v46_apply, val_main_v48_apply, val_main_v47_apply]
  unfold result
  simp only [Ideal.addf_def]
  refine congrArg₂ (· + ·) (Finset.sum_congr rfl fun k _ => ?_) ?_
  · have hl : lidx_main_v46 (ix2 n j) k = ix2 n k :=
      funext fun a => Fin.ext (by match a with | ⟨0, _⟩ => rfl | ⟨1, _⟩ => rfl)
    have hr : ridx_main_v46 (ix2 n j) k = ix2 k j :=
      funext fun a => Fin.ext (by match a with | ⟨0, _⟩ => rfl | ⟨1, _⟩ => rfl)
    rw [hl, hr, v45_row x0 x1 x2 x4 x5 x6 x7 x8 x9 x10 x11 x12 x13 x14 x15 x16 x17 n k]
    rfl
  · exact congrArg x17 (funext fun a => Fin.ext (by match a with | ⟨0, _⟩ => rfl))

end Cert.ReferenceIdeal.RowValue

namespace Cert.ReferenceIdeal.RowValue

open Cert.ReferenceIdeal Cert.ReferenceIdeal.StageRead Cert.AtomSpec Idealize.ShloMosaic Idealize.ShloMosaic.ValueIdx

/-- The reference's result is the specification's flattened array. -/
theorem v50_flat (x0 : (⟨S200000x3, .f32⟩ : BufTy).Contents (Elt Ideal)) (x1 : (⟨S200000x128, .f32⟩ : BufTy).Contents (Elt Ideal))
    (x2 : (⟨S200000x3x128, .f32⟩ : BufTy).Contents (Elt Ideal)) (x4 : (⟨S128x128, .f32⟩ : BufTy).Contents (Elt Ideal))
    (x5 : (⟨S192x64, .f32⟩ : BufTy).Contents (Elt Ideal)) (x6 : (⟨S64, .f32⟩ : BufTy).Contents (Elt Ideal))
    (x7 : (⟨S64x128, .f32⟩ : BufTy).Contents (Elt Ideal)) (x8 : (⟨S128, .f32⟩ : BufTy).Contents (Elt Ideal))
    (x9 : (⟨S64x2, .f32⟩ : BufTy).Contents (Elt Ideal)) (x10 : (⟨S65x1, .f32⟩ : BufTy).Contents (Elt Ideal))
    (x11 : (⟨S1, .f32⟩ : BufTy).Contents (Elt Ideal)) (x12 : (⟨S1x2, .f32⟩ : BufTy).Contents (Elt Ideal))
    (x13 : (⟨S2, .f32⟩ : BufTy).Contents (Elt Ideal)) (x14 : (⟨S7x10, .f32⟩ : BufTy).Contents (Elt Ideal))
    (x15 : (⟨S10, .f32⟩ : BufTy).Contents (Elt Ideal)) (x16 : (⟨S10x3, .f32⟩ : BufTy).Contents (Elt Ideal))
    (x17 : (⟨S3, .f32⟩ : BufTy).Contents (Elt Ideal)) :
    val_main_v50 x0 x1 x2 x4 x5 x6 x7 x8 x9 x10 x11 x12 x13 x14 x15 x16 x17 = resultFlat (wR x4 x5 x6 x7 x8 x9 x10 x11 x12 x13 x14 x15 x16 x17) x0 x1 x2 := by
  funext i
  rw [val_main_v50_apply]
  have hi : (i 0).val < 600000 := (i 0).isLt
  have e : idx_main_v50 i
      = ix2 (⟨(i 0).val / 3, by omega⟩ : Fin 200000) (⟨(i 0).val % 3, Nat.mod_lt _ (by decide)⟩ : Fin 3) :=
    funext fun a => Fin.ext (by match a with | ⟨0, _⟩ => rfl | ⟨1, _⟩ => rfl)
  rw [e, v49_row x0 x1 x2 x4 x5 x6 x7 x8 x9 x10 x11 x12 x13 x14 x15 x16 x17]
  rfl

end Cert.ReferenceIdeal.RowValue

end
-- ==== Proof.lean ====
/-
  The kernel and its reference compute one function of their arguments.

  Both programs apply a per-atom network to 200000 atoms: no entry of the result depends on another atom, and the
  molecule indices are read by neither. The specification (Proof/AtomSpec.lean) writes one atom's three outputs as a
  function of its scalar features, its three component rows of vector features, its position and the weights, on the
  extended reals. The kernel works on blocks of 4000 atoms: each row of the block it stores is the specification at
  that row's atom (Proof/KernelBlock1.lean, Proof/KernelBlock2.lean), the fifty blocks tile the result array, and the
  host's closing reshape flattens it (Proof/KernelArray.lean). The reference works on whole arrays: each stage read at
  atom n is the specification's stage at that atom (Proof/RefBlock1.lean, Proof/RefBlock2.lean). The two sides differ
  only in spelling: matrix products into a zero accumulator against contractions, a change of float format that is the
  identity on the extended reals, the three squares under a norm added directly against a sum over the component axis
  from zero, and the logistic function against 1 / (1 + e⁻ˣ), which is its definition. No law used needs the inputs to be
  finite, so the precondition is not opened. The idealization rewrote no operation, so nothing is to be preserved; the
  kernel's frames are the generated ones, and the reference's frame is its run with the result dropped.
-/
import proofs.«118726_j67070209295171_1_alg».proof.Defs
import proofs.«118726_j67070209295171_1_alg».proof.Proof.Gen.Kernel
import proofs.«118726_j67070209295171_1_alg».proof.Proof.Gen.Kernel.Skeleton
import proofs.«118726_j67070209295171_1_alg».proof.Proof.Gen.Kernel.Launch
import proofs.«118726_j67070209295171_1_alg».proof.Proof.Gen.Kernel.Points
import proofs.«118726_j67070209295171_1_alg».proof.Proof.Gen.Kernel.Frame
import proofs.«118726_j67070209295171_1_alg».proof.Proof.Gen.KernelIdeal
import proofs.«118726_j67070209295171_1_alg».proof.Proof.Gen.KernelIdeal.Skeleton
import proofs.«118726_j67070209295171_1_alg».proof.Proof.Gen.KernelIdeal.Launch
import proofs.«118726_j67070209295171_1_alg».proof.Proof.Gen.KernelIdeal.Points
import proofs.«118726_j67070209295171_1_alg».proof.Proof.Gen.KernelIdeal.Frame
import proofs.«118726_j67070209295171_1_alg».proof.Proof.Gen.ReferenceIdeal
import proofs.«118726_j67070209295171_1_alg».proof.Proof.Gen.Pre_finite_inputs
import proofs.«118726_j67070209295171_1_alg».proof.Proof.KernelArray
import proofs.«118726_j67070209295171_1_alg».proof.Proof.RefBlock2
import proofs.«118726_j67070209295171_1_alg».proof.Proof.RefRun
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame: its run, with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.StageRun.run (F := Ideal) m ρ)

/-- Both runs end with the result buffer at the specification's flattened result of the arguments, which agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.ArrayValue.flatOf m c, Cert.KernelIdeal.ArrayValue.run m ρ, ?_⟩
  refine (θ_run Cert.ReferenceIdeal.defs _ _).mono (fun _ h c => ⟨(h c).1.trans ?_, (h c).2⟩)
    (Cert.ReferenceIdeal.StageRun.run (F := Ideal) m' ρ')
  obtain ⟨a0, a1, a2, -, a4, a5, a6, a7, a8, a9, a10, a11, a12, a13, a14, a15, a16, a17⟩ := hagree c
  show Cert.ReferenceIdeal.StageRead.val_main_v50 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = _
  rw [Cert.ReferenceIdeal.RowValue.v50_flat, a0, a1, a2, a4, a5, a6, a7, a8, a9, a10, a11, a12, a13, a14, a15, a16, a17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
